-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S192x64 : Shape := ⟨2, ![192, 64]⟩
abbrev S64x128 : Shape := ⟨2, ![64, 128]⟩
abbrev S192x128 : Shape := ⟨2, ![192, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S64x128 : S_.BroadcastsInDim S64x128 (![] : Fin 0 → Fin S64x128.rank)
  reducesTo_S64x128_S_d0_1 : S64x128.ReducesTo [0, 1] S_
  bcast_S_S192x128 : S_.BroadcastsInDim S192x128 (![] : Fin 0 → Fin S192x128.rank)
  reducesTo_S192x128_S_d0_1 : S192x128.ReducesTo [0, 1] S_

variable [Facts]

def fn_part3 {F : FTy → Type} [FloatOps F] (main_arg11 : FVec F S128 .f32) (main_v48 : IVec S_ 1) (main_v49 : FVec F S192x128 .f32) (main_v50 : FVec F S192x128 .f32) : IVec S_ 1 :=
  let main_v51 : IVec S192x128 1 := cmpf .olt main_v49 main_v50
  let main_c_19 : IVec S_ 1 := constantI S_ 1 1#1
  let main_v52 : IVec S_ 1 := (fun x v => Host.reduce IntOp.andi x v reducesTo_S192x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S64 .f32) (main_arg8 : FVec F S64x128 .f32) (main_arg9 : FVec F S128 .f32) (main_arg10 : FVec F S192x128 .f32) (main_arg11 : FVec F S128 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S192x128 .f32 := Host.absf main_arg10
  let main_cst_18 : FVec F S_ .f32 := constant S_ .f32 0x7F800000#32
  let main_v50 : FVec F S192x128 .f32 := broadcastInDim S192x128 ![] bcast_S_S192x128 main_cst_18
  fn_part3 (F := F) main_arg11 main_v48 main_v49 main_v50

def fn_part1 {F : FTy → Type} [FloatOps F] (main_arg4 : FVec F S128x64 .f32) (main_arg5 : FVec F S64 .f32) (main_arg6 : FVec F S192x64 .f32) (main_arg7 : FVec F S64 .f32) (main_arg8 : FVec F S64x128 .f32) (main_arg9 : FVec F S128 .f32) (main_arg10 : FVec F S192x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg6
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S192x64 .f32) (main_arg7 : FVec F S64 .f32) (main_arg8 : FVec F S64x128 .f32) (main_arg9 : FVec F S128 .f32) (main_arg10 : FVec F S192x128 .f32) (main_arg11 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S192x64 : Shape := ⟨2, ![192, 64]⟩
abbrev S64x128 : Shape := ⟨2, ![64, 128]⟩
abbrev S192x128 : Shape := ⟨2, ![192, 128]⟩
abbrev S1x128 : Shape := ⟨2, ![1, 128]⟩
abbrev S1x64 : Shape := ⟨2, ![1, 64]⟩
abbrev S_ : Shape := ⟨0, ![]⟩
abbrev S64x64 : Shape := ⟨2, ![64, 64]⟩
abbrev S128x256 : Shape := ⟨2, ![128, 256]⟩
abbrev S256x256 : Shape := ⟨2, ![256, 256]⟩
abbrev S200x10000 : Shape := ⟨2, ![200, 10000]⟩
abbrev S200x128 : Shape := ⟨2, ![200, 128]⟩
abbrev S1000x10000 : Shape := ⟨2, ![1000, 10000]⟩
abbrev S1000x128 : Shape := ⟨2, ![1000, 128]⟩
abbrev S1000x256 : Shape := ⟨2, ![1000, 256]⟩

abbrev nBuf : Space → Nat
  | .hbm => 56
  | .vmem => 43
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S192x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S192x128, .f32⟩
  | .hbm, ⟨11, _⟩ => ⟨S128, .f32⟩
  | .hbm, ⟨12, _⟩ => ⟨S1x128, .f32⟩
  | .hbm, ⟨13, _⟩ => ⟨S1x64, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S1x64, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S_, .i32⟩
  | .hbm, ⟨24, _⟩ => ⟨S_, .f32⟩
  | .hbm, ⟨25, _⟩ => ⟨S128x128, .f32⟩
  | .hbm, ⟨26, _⟩ => ⟨S128x128, .bf16⟩
  | .hbm, ⟨27, _⟩ => ⟨S128x128, .f32⟩
  | .hbm, ⟨28, _⟩ => ⟨S64x128, .f32⟩
  | .hbm, ⟨29, _⟩ => ⟨S_, .i32⟩
  | .hbm, ⟨30, _⟩ => ⟨S_, .f32⟩
  | .hbm, ⟨31, _⟩ => ⟨S128x128, .f32⟩
  | .hbm, ⟨32, _⟩ => ⟨S128x64, .f32⟩
  | .hbm, ⟨33, _⟩ => ⟨S_, .i32⟩
  | .hbm, ⟨34, _⟩ => ⟨S_, .f32⟩
  | .hbm, ⟨35, _⟩ => ⟨S128x128, .f32⟩
  | .hbm, ⟨36, _⟩ => ⟨S64x64, .f32⟩
  | .hbm, ⟨37, _⟩ => ⟨S_, .i32⟩
  | .hbm, ⟨38, _⟩ => ⟨S_, .f32⟩
  | .hbm, ⟨39, _⟩ => ⟨S128x128, .f32⟩
  | .hbm, ⟨40, _⟩ => ⟨S128x256, .f32⟩
  | .hbm, ⟨41, _⟩ => ⟨S128x256, .f32⟩
  | .hbm, ⟨42, _⟩ => ⟨S256x256, .f32⟩
  | .hbm, ⟨43, _⟩ => ⟨S256x256, .bf16⟩
  | .hbm, ⟨44, _⟩ => ⟨S_, .i32⟩
  | .hbm, ⟨45, _⟩ => ⟨S_, .f32⟩
  | .hbm, ⟨46, _⟩ => ⟨S128x128, .f32⟩
  | .hbm, ⟨47, _⟩ => ⟨S128x128, .bf16⟩
  | .hbm, ⟨48, _⟩ => ⟨S10000x128, .bf16⟩
  | .hbm, ⟨49, _⟩ => ⟨S10000x10000, .bf16⟩
  | .hbm, ⟨50, _⟩ => ⟨S10000x128, .f32⟩
  | .hbm, ⟨51, _⟩ => ⟨S10000x128, .bf16⟩
  | .hbm, ⟨52, _⟩ => ⟨S10000x128, .f32⟩
  | .hbm, ⟨53, _⟩ => ⟨S10000x128, .bf16⟩
  | .hbm, ⟨54, _⟩ => ⟨S10000x128, .bf16⟩
  | .hbm, ⟨55, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S200x10000, .f32⟩
  | .local _ .vmem, ⟨4, _⟩ => ⟨S200x10000, .f32⟩
  | .local _ .vmem, ⟨5, _⟩ => ⟨S10000x128, .bf16⟩
  | .local _ .vmem, ⟨6, _⟩ => ⟨S1x128, .f32⟩
  | .local _ .vmem, ⟨7, _⟩ => ⟨S128x128, .bf16⟩
  | .local _ .vmem, ⟨8, _⟩ => ⟨S200x10000, .bf16⟩
  | .local _ .vmem, ⟨9, _⟩ => ⟨S200x10000, .bf16⟩
  | .local _ .vmem, ⟨10, _⟩ => ⟨S200x128, .f32⟩
  | .local _ .vmem, ⟨11, _⟩ => ⟨S200x128, .f32⟩
  | .local _ .vmem, ⟨12, _⟩ => ⟨S200x128, .bf16⟩
  | .local _ .vmem, ⟨13, _⟩ => ⟨S200x128, .bf16⟩
  | .local _ .vmem, ⟨14, _⟩ => ⟨S1000x10000, .bf16⟩
  | .local _ .vmem, ⟨15, _⟩ => ⟨S1000x10000, .bf16⟩
  | .local _ .vmem, ⟨16, _⟩ => ⟨S10000x128, .bf16⟩
  | .local _ .vmem, ⟨17, _⟩ => ⟨S1x128, .f32⟩
  | .local _ .vmem, ⟨18, _⟩ => ⟨S1000x128, .f32⟩
  | .local _ .vmem, ⟨19, _⟩ => ⟨S1000x128, .f32⟩
  | .local _ .vmem, ⟨20, _⟩ => ⟨S256x256, .bf16⟩
  | .local _ .vmem, ⟨21, _⟩ => ⟨S1x128, .f32⟩
  | .local _ .vmem, ⟨22, _⟩ => ⟨S1000x128, .f32⟩
  | .local _ .vmem, ⟨23, _⟩ => ⟨S1000x128, .f32⟩
  | .local _ .vmem, ⟨24, _⟩ => ⟨S1000x128, .bf16⟩
  | .local _ .vmem, ⟨25, _⟩ => ⟨S1000x128, .bf16⟩
  | .local _ .vmem, ⟨26, _⟩ => ⟨S1000x10000, .bf16⟩
  | .local _ .vmem, ⟨27, _⟩ => ⟨S1000x10000, .bf16⟩
  | .local _ .vmem, ⟨28, _⟩ => ⟨S10000x128, .bf16⟩
  | .local _ .vmem, ⟨29, _⟩ => ⟨S1x128, .f32⟩
  | .local _ .vmem, ⟨30, _⟩ => ⟨S128x128, .bf16⟩
  | .local _ .vmem, ⟨31, _⟩ => ⟨S1000x128, .bf16⟩
  | .local _ .vmem, ⟨32, _⟩ => ⟨S1000x128, .bf16⟩
  | .local _ .vmem, ⟨33, _⟩ => ⟨S1000x10000, .bf16⟩
  | .local _ .vmem, ⟨34, _⟩ => ⟨S1000x10000, .bf16⟩
  | .local _ .vmem, ⟨35, _⟩ => ⟨S10000x128, .bf16⟩
  | .local _ .vmem, ⟨36, _⟩ => ⟨S1x128, .f32⟩
  | .local _ .vmem, ⟨37, _⟩ => ⟨S1000x128, .f32⟩
  | .local _ .vmem, ⟨38, _⟩ => ⟨S1000x128, .f32⟩
  | .local _ .vmem, ⟨39, _⟩ => ⟨S1000x128, .f32⟩
  | .local _ .vmem, ⟨40, _⟩ => ⟨S1000x128, .f32⟩
  | .local _ .vmem, ⟨41, _⟩ => ⟨S1000x128, .f32⟩
  | .local _ .vmem, ⟨42, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_call1_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_call3_v0 : Ref sig .tc := ⟨.hbm, 30, rfl⟩
abbrev main_v11 : Ref sig .tc := ⟨.hbm, 31, rfl⟩
abbrev main_v12 : Ref sig .tc := ⟨.hbm, 32, rfl⟩
abbrev main_c_3 : Ref sig .tc := ⟨.hbm, 33, rfl⟩
abbrev main_call4_v0 : Ref sig .tc := ⟨.hbm, 34, rfl⟩
abbrev main_v13 : Ref sig .tc := ⟨.hbm, 35, rfl⟩
abbrev main_v14 : Ref sig .tc := ⟨.hbm, 36, rfl⟩
abbrev main_c_4 : Ref sig .tc := ⟨.hbm, 37, rfl⟩
abbrev main_call5_v0 : Ref sig .tc := ⟨.hbm, 38, rfl⟩
abbrev main_v15 : Ref sig .tc := ⟨.hbm, 39, rfl⟩
abbrev main_call6_v0 : Ref sig .tc := ⟨.hbm, 40, rfl⟩
abbrev main_call6_v1 : Ref sig .tc := ⟨.hbm, 41, rfl⟩
abbrev main_v16 : Ref sig .tc := ⟨.hbm, 42, rfl⟩
abbrev main_v17 : Ref sig .tc := ⟨.hbm, 43, rfl⟩
abbrev main_c_5 : Ref sig .tc := ⟨.hbm, 44, rfl⟩
abbrev main_call7_v0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21_0 : Ref sig .tc := ⟨.hbm, 49, rfl⟩
abbrev main_v21_1 : Ref sig .tc := ⟨.hbm, 50, rfl⟩
abbrev main_v21_2 : Ref sig .tc := ⟨.hbm, 51, rfl⟩
abbrev main_v22_0 : Ref sig .tc := ⟨.hbm, 52, rfl⟩
abbrev main_v22_1 : Ref sig .tc := ⟨.hbm, 53, rfl⟩
abbrev main_v23 : Ref sig .tc := ⟨.hbm, 54, rfl⟩
abbrev main_v24 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg5_1 : Ref sig .tc := ⟨.vmem, 42, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem7_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem4_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38
abbrev cc4_sem4_0 : DmaSem sig := 39
abbrev cc4_sem4_1 : DmaSem sig := 40
abbrev cc4_sem5_0 : DmaSem sig := 41
abbrev cc4_sem5_1 : DmaSem sig := 42

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S200x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1000x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  shapeCasts_S128_S1x128 : S128.ShapeCasts S1x128
  shapeCasts_S64_S1x64 : S64.ShapeCasts S1x64
  pads_S1x64_S1x128_000_0640 : S1x64.Pads (![0, 0] : Fin 2 → Nat) ![0, 64] ![0, 0] S1x128
  h_S_ : 0 < S_.numel
  pads_S128x64_S128x128_000_0640 : S128x64.Pads (![0, 0] : Fin 2 → Nat) ![0, 64] ![0, 0] S128x128
  bitsLt_bf16_f32 : FTy.bits .bf16 < FTy.bits .f32
  slices_S192x128_S128x128_0_0 : S192x128.Slices ![0, 0] S128x128
  slices_S192x128_S64x128_128_0 : S192x128.Slices ![128, 0] S64x128
  pads_S64x128_S128x128_0640_000 : S64x128.Pads (![0, 0] : Fin 2 → Nat) ![64, 0] ![0, 0] S128x128
  slices_S192x64_S128x64_0_0 : S192x64.Slices ![0, 0] S128x64
  slices_S192x64_S64x64_128_0 : S192x64.Slices ![128, 0] S64x64
  pads_S64x64_S128x128_0640_0640 : S64x64.Pads (![0, 0] : Fin 2 → Nat) ![64, 64] ![0, 0] S128x128
  concatenates_S128x128_S128x128_S128x256_d1 : Shape.Concatenates [S128x128, S128x128] S128x256 1
  concatenates_S128x256_S128x256_S256x256_d0 : Shape.Concatenates [S128x256, S128x256] S256x256 0
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  shapeCasts_S128x128_S128x128 : S128x128.ShapeCasts S128x128
  packedbf16_S200x128_S200x128_0_0 : (Rect.unit (s := S200x128) ![0, 0] S200x128.size inb_S200x128_S200x128_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  concatenates_S1000x128_S1000x128_S1000x256_d1 : Shape.Concatenates [S1000x128, S1000x128] S1000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S1000x256_o0_0_S1000x128 : S1000x256.Slices ![0, 0] S1000x128
  slices_S1000x256_o0_128_S1000x128 : S1000x256.Slices ![0, 128] S1000x128
  packedbf16_S1000x128_S1000x128_0_0 : (Rect.unit (s := S1000x128) ![0, 0] S1000x128.size inb_S1000x128_S1000x128_0_0).PackedRows (EltTy.packing .bf16)
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S1000x10000_S10000x128_S1000x128_1_0_0_1_n_n_wf : DotDims.WF S1000x10000 S10000x128 S1000x128 [1] [0] [0] [1] [] []
  dot_S1000x256_S256x256_S1000x256_1_0_0_1_n_n_wf : DotDims.WF S1000x256 S256x256 S1000x256 [1] [0] [0] [1] [] []
  dot_S1000x128_S128x128_S1000x128_1_0_0_1_n_n_wf : DotDims.WF S1000x128 S128x128 S1000x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x10000.size a ≤ S10000x10000.size a
  hwx1_4 : ∀ i : grid1.Coords, EltTy.bits .bf16 = 32 ∨ (Rect.block (s := S10000x10000) S200x10000.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x128.size a ≤ S10000x128.size a
  hwx1_5 : ∀ i : grid1.Coords, EltTy.bits .f32 = 32 ∨ (Rect.block (s := S10000x128) S200x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x128.size a ≤ S10000x128.size a
  hwx1_6 : ∀ i : grid1.Coords, EltTy.bits .bf16 = 32 ∨ (Rect.block (s := S10000x128) S200x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S10000x128.size a
  hwx2_3 : ∀ i : grid2.Coords, EltTy.bits .f32 = 32 ∨ (Rect.block (s := S10000x128) S1000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x128.size a ≤ S10000x128.size a
  hwx2_6 : ∀ i : grid2.Coords, EltTy.bits .f32 = 32 ∨ (Rect.block (s := S10000x128) S1000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x128.size a ≤ S10000x128.size a
  hwx2_7 : ∀ i : grid2.Coords, EltTy.bits .bf16 = 32 ∨ (Rect.block (s := S10000x128) S1000x128.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x128.size a ≤ S10000x128.size a
  hwx3_4 : ∀ i : grid3.Coords, EltTy.bits .bf16 = 32 ∨ (Rect.block (s := S10000x128) S1000x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x10000.size a ≤ S10000x10000.size a
  hwx4_0 : ∀ i : grid4.Coords, EltTy.bits .bf16 = 32 ∨ (Rect.block (s := S10000x10000) S1000x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S10000x128.size a
  hwx4_3 : ∀ i : grid4.Coords, EltTy.bits .f32 = 32 ∨ (Rect.block (s := S10000x128) S1000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x128.size a ≤ S10000x128.size a
  hwx4_4 : ∀ i : grid4.Coords, EltTy.bits .f32 = 32 ∨ (Rect.block (s := S10000x128) S1000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x128.size a ≤ S10000x128.size a
  hwx4_5 : ∀ i : grid4.Coords, EltTy.bits .f32 = 32 ∨ (Rect.block (s := S10000x128) S1000x128.size (cc4_transform_5 i) (hinb4_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v20) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_0) S200x10000.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21_1) S200x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v21_2) S200x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21_2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21_1) S1000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v17) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22_0) S1000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v22_1) S1000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v21_0) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22_1) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v23) S1000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v21_0) S1000x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v5) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v21_1) S1000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v22_0) S1000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v24) S1000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S192x64 : Shape := ⟨2, ![192, 64]⟩
abbrev S64x128 : Shape := ⟨2, ![64, 128]⟩
abbrev S192x128 : Shape := ⟨2, ![192, 128]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000x192 : Shape := ⟨2, ![10000, 192]⟩

abbrev nBuf : Space → Nat
  | .hbm => 79
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S192x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S192x128, .f32⟩
  | .hbm, ⟨11, _⟩ => ⟨S128, .f32⟩
  | .hbm, ⟨12, _⟩ => ⟨S10000x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S10000x64, .f32⟩
  | .hbm, ⟨26, _⟩ => ⟨S10000x64, .f32⟩
  | .hbm, ⟨27, _⟩ => ⟨S1x64, .f32⟩
  | .hbm, ⟨28, _⟩ => ⟨S10000x64, .f32⟩
  | .hbm, ⟨29, _⟩ => ⟨S10000x64, .f32⟩
  | .hbm, ⟨30, _⟩ => ⟨S10000x64, .f32⟩
  | .hbm, ⟨31, _⟩ => ⟨S10000x64, .f32⟩
  | .hbm, ⟨32, _⟩ => ⟨S_, .f32⟩
  | .hbm, ⟨33, _⟩ => ⟨S10000x64, .f32⟩
  | .hbm, ⟨34, _⟩ => ⟨S10000x64, .f32⟩
  | .hbm, ⟨35, _⟩ => ⟨S_, .f32⟩
  | .hbm, ⟨36, _⟩ => ⟨S10000x64, .f32⟩
  | .hbm, ⟨37, _⟩ => ⟨S10000x64, .f32⟩
  | .hbm, ⟨38, _⟩ => ⟨S10000x192, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S10000x64, .f32⟩
  | .hbm, ⟨44, _⟩ => ⟨S10000x64, .f32⟩
  | .hbm, ⟨45, _⟩ => ⟨S1x64, .f32⟩
  | .hbm, ⟨46, _⟩ => ⟨S10000x64, .f32⟩
  | .hbm, ⟨47, _⟩ => ⟨S10000x64, .f32⟩
  | .hbm, ⟨48, _⟩ => ⟨S10000x64, .f32⟩
  | .hbm, ⟨49, _⟩ => ⟨S10000x64, .f32⟩
  | .hbm, ⟨50, _⟩ => ⟨S_, .f32⟩
  | .hbm, ⟨51, _⟩ => ⟨S10000x64, .f32⟩
  | .hbm, ⟨52, _⟩ => ⟨S10000x64, .f32⟩
  | .hbm, ⟨53, _⟩ => ⟨S_, .f32⟩
  | .hbm, ⟨54, _⟩ => ⟨S10000x64, .f32⟩
  | .hbm, ⟨55, _⟩ => ⟨S10000x64, .f32⟩
  | .hbm, ⟨56, _⟩ => ⟨S10000x128, .f32⟩
  | .hbm, ⟨57, _⟩ => ⟨S10000x128, .f32⟩
  | .hbm, ⟨58, _⟩ => ⟨S1x128, .f32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S_, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000x128, .f32⟩
  | .hbm, ⟨68, _⟩ => ⟨S10000x128, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S_, .f32⟩
  | .hbm, ⟨74, _⟩ => ⟨S10000x128, .f32⟩
  | .hbm, ⟨75, _⟩ => ⟨S10000x128, .f32⟩
  | .hbm, ⟨76, _⟩ => ⟨S_, .f32⟩
  | .hbm, ⟨77, _⟩ => ⟨S10000x128, .f32⟩
  | .hbm, ⟨78, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  concatenates_S10000x128_S10000x64_S10000x192_d1 : Shape.Concatenates [S10000x128, S10000x64] S10000x192 1
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x192_S192x128_S10000x128_1_0_0_1_n_n_wf : DotDims.WF S10000x192 S192x128 S10000x128 [1] [0] [0] [1] [] []
  dot_S10000x192_S192x64_S10000x64_1_0_0_1_n_n_wf : DotDims.WF S10000x192 S192x64 S10000x64 [1] [0] [0] [1] [] []
  dot_S10000x64_S64x128_S10000x128_1_0_0_1_n_n_wf : DotDims.WF S10000x64 S64x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x192_S192x128_S10000x128_1_0_0_1_n_n : DotDims S10000x192 S192x128 S10000x128 where
  lhsContracting := [1]
  rhsContracting := [0]
  lhsNonContracting := [0]
  rhsNonContracting := [1]
  lhsBatch := []
  rhsBatch := []
  wf := dot_S10000x192_S192x128_S10000x128_1_0_0_1_n_n_wf
def dot_S10000x192_S192x64_S10000x64_1_0_0_1_n_n : DotDims S10000x192 S192x64 S10000x64 where
  lhsContracting := [1]
  rhsContracting := [0]
  lhsNonContracting := [0]
  rhsNonContracting := [1]
  lhsBatch := []
  rhsBatch := []
  wf := dot_S10000x192_S192x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

class Facts : Prop extends Facts₀ where

variable [Facts]
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.Spec.lean ====
/-
  The mathematics of the certificate, with no program in sight.

  A graph convolution layer is  lay a s b = σ(a · s + b):  the adjacency matrix a times a support matrix s,
  a bias row b added to every row, the logistic function σ entrywise.  The reference computes

      x11 = lay adj (x · W1) b1            x12 = lay adj (x11 · W2) b2            cat = [x11 | x12]   (192 columns)
      l1  = cat · Wl + bl                  x21 = lay adj (cat · W3) b3            x22 = lay adj (x21 · W4) b4
      out = σ(x11 + x22 ∘ l1)

  The kernel computes the same thing with its 64-column pieces widened to 128 columns by zeros: a zero column of a
  weight gives a zero column of the support, which the adjacency product keeps zero; the widened layer then holds
  σ(0 + 0) in its extra columns, and these meet only zero rows of the next weight.  Its concatenation is 256 wide
  and meets a 256 x 256 weight whose rows 0..191 are the rows of [Wl | W3 | 0] and whose rows 192..255 are zero.

  Everything is an array of extended reals indexed by a two-coordinate index; sums are over the inner index.
-/
import Idealize.ShloMosaic.Lib.ValueIdx
import Idealize.ShloMosaic.PureOps.Ideal.Laws
import proofs.«114499_g16518444220475_cont_week2b_302_24_alg».proof.Proof.LibPlainDot

noncomputable section

namespace Cert.Gcn

open Idealize.ShloMosaic Idealize.ShloMosaic.ValueIdx Cert.PlainDot

/-- A matrix of extended reals with M rows and N columns. -/
abbrev Mat (M N : Nat) := (⟨2, ![M, N]⟩ : Shape).Idx → EReal
/-- A vector of extended reals with N entries. -/
abbrev Row (N : Nat) := (⟨1, ![N]⟩ : Shape).Idx → EReal

variable {M K N P Q T M' N' : Nat}

/-- The matrix product: entry (r, c) is the sum over k of A (r, k) * B (k, c). -/
def mm (A : Mat M K) (B : Mat K N) : Mat M N := fun j => ∑ k : Fin K, A (ix2 (j 0) k) * B (ix2 k (j 1))

/-- The logistic function on every entry. -/
def lgs (Z : Mat M N) : Mat M N := fun j => Ideal.logistic (Z j)

/-- A vector as a one-row matrix. -/
def rowOf (b : Row N) : Mat 1 N := fun j => b (ix1 (j 1))

/-- One graph-convolution layer: σ(a · s + b), the row b added to every row of the product. -/
def lay (a : Mat M K) (s : Mat K N) (b : Mat 1 N) : Mat M N := lgs (affine a s b)

/-- Two matrices side by side (A's P columns first); zero beyond both. -/
def catCols (A : Mat M P) (B : Mat M Q) : Mat M T := fun j =>
  if h : (j 1).val < P then A (ix2 (j 0) ⟨(j 1).val, h⟩)
  else if h' : (j 1).val - P < Q then B (ix2 (j 0) ⟨(j 1).val - P, h'⟩) else 0

/-- Two matrices one above the other (A's P rows first); zero beyond both. -/
def catRows (A : Mat P N) (B : Mat Q N) : Mat T N := fun j =>
  if h : (j 0).val < P then A (ix2 ⟨(j 0).val, h⟩ (j 1))
  else if h' : (j 0).val - P < Q then B (ix2 ⟨(j 0).val - P, h'⟩ (j 1)) else 0

/-- A matrix in the top left corner of a larger one, zero elsewhere. -/
def padTo (A : Mat M N) : Mat M' N' := fun j =>
  if h : (j 0).val < M ∧ (j 1).val < N then A (ix2 ⟨(j 0).val, h.1⟩ ⟨(j 1).val, h.2⟩) else 0

/-- The columns of A from column o on (zero past A's last column). -/
def colsFrom (o : Nat) (A : Mat M N) : Mat M N' := fun j =>
  if h : o + (j 1).val < N then A (ix2 (j 0) ⟨o + (j 1).val, h⟩) else 0

/-- The rows of A from row o on (zero past A's last row). -/
def rowsFrom (o : Nat) (A : Mat M N) : Mat M' N := fun j =>
  if h : o + (j 0).val < M then A (ix2 ⟨o + (j 0).val, h⟩ (j 1)) else 0

/-! ## What each kernel launch leaves in its output arrays, as functions of the arrays it reads -/

/-- Third launch: the 256-wide concatenation [x11 | lay a s2 b2]. -/
def g2cat (a : Mat M K) (s2 : Mat K 128) (b2 : Mat 1 128) (x11 : Mat M 128) : Mat M 256 :=
  catCols x11 (lay a s2 b2)

/-- Third launch, first output: the left 128 columns of the concatenation's product with the combined weight, plus the bias row. -/
def g2l (a : Mat M K) (s2 : Mat K 128) (b2 : Mat 1 128) (x11 : Mat M 128) (wc : Mat 256 256) (bl : Mat 1 128) : Mat M 128 :=
  fun j => (colsFrom 0 (mm (g2cat a s2 b2 x11) wc) : Mat M 128) j + bl (ix2 (0 : Fin 1) (j 1))

/-- Third launch, second output: the right 128 columns of the same product. -/
def g2s (a : Mat M K) (s2 : Mat K 128) (b2 : Mat 1 128) (x11 : Mat M 128) (wc : Mat 256 256) : Mat M 128 :=
  colsFrom 128 (mm (g2cat a s2 b2 x11) wc)

/-- Fourth launch: the layer's output times the next weight. -/
def g3 (a : Mat M K) (s3 : Mat K 128) (b3 : Mat 1 128) (w4 : Mat 128 128) : Mat M 128 := mm (lay a s3 b3) w4

/-- Fifth launch: σ(x11 + lay a s4 b4 ∘ l1). -/
def g4 (a : Mat M K) (s4 : Mat K 128) (b4 : Mat 1 128) (x11 l1 : Mat M 128) : Mat M 128 :=
  fun j => Ideal.logistic (x11 j + lay a s4 b4 j * l1 j)

/-- The kernel's result as a function of its three large arguments and the eight small arrays the host prepares. -/
def kernelOut (x : Mat 10000 128) (adj : Mat 10000 10000) (W1 : Mat 128 128) (b1r : Mat 1 128) (w2c : Mat 128 128)
    (b2r : Mat 1 128) (wc : Mat 256 256) (blr b3r : Mat 1 128) (w4c : Mat 128 128) (b4r : Mat 1 128) : Mat 10000 128 :=
  g4 adj (g3 adj (g2s adj (mm (lay adj (mm x W1) b1r) w2c) b2r (lay adj (mm x W1) b1r) wc) b3r w4c) b4r
    (lay adj (mm x W1) b1r) (g2l adj (mm (lay adj (mm x W1) b1r) w2c) b2r (lay adj (mm x W1) b1r) wc blr)

/-- The 256 x 256 weight the host assembles: [[Wl rows 0..127 | W3 rows 0..127, widened], [Wl rows 128..191, lengthened | W3 rows 128..191, widened and lengthened]]. -/
def wcomb (Wl : Mat 192 128) (W3 : Mat 192 64) : Mat 256 256 :=
  catRows
    (catCols (rowsFrom 0 Wl : Mat 128 128) (padTo (rowsFrom 0 W3 : Mat 128 64) : Mat 128 128) : Mat 128 256)
    (catCols (padTo (rowsFrom 128 Wl : Mat 64 128) : Mat 128 128) (padTo (rowsFrom 128 W3 : Mat 64 64) : Mat 128 128) : Mat 128 256)

/-- The reference's result. -/
def refOut (x : Mat 10000 128) (adj : Mat 10000 10000) (W1 : Mat 128 128) (b1 : Row 128) (W2 : Mat 128 64) (b2 : Row 64)
    (W3 : Mat 192 64) (b3 : Row 64) (W4 : Mat 64 128) (b4 : Row 128) (Wl : Mat 192 128) (bl : Row 128) : Mat 10000 128 :=
  let x11 : Mat 10000 128 := lay adj (mm x W1) (rowOf b1)
  let x12 : Mat 10000 64 := lay adj (mm x11 W2) (rowOf b2)
  let cat : Mat 10000 192 := catCols x11 x12
  let l1 : Mat 10000 128 := affine cat Wl (rowOf bl)
  let x21 : Mat 10000 64 := lay adj (mm cat W3) (rowOf b3)
  let x22 : Mat 10000 128 := lay adj (mm x21 W4) (rowOf b4)
  fun j => Ideal.logistic (x11 j + x22 j * l1 j)

end Cert.Gcn

end
-- ==== Proof.Region0.lean ====
import proofs.«114499_g16518444220475_cont_week2b_302_24_alg».proof.Proof.Gen.KernelIdeal.Frame
import proofs.«114499_g16518444220475_cont_week2b_302_24_alg».proof.Proof.Spec
import Idealize.ShloMosaic.Lib.Pipeline.Value
import Idealize.ShloMosaic.Lib.ValueLayout

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.Gcn Cert.PlainDot

-- the buffer contents when the launch is entered: any contents at all
variable (V : (c : Dev nD) → (b : Ref sig .tc) → Buf (Elt Ideal) ((c : Thread nD τ).loc b))

theorem hz : (![0, 0] : Fin 2 → Nat) = fun _ => 0 := funext fun a => by fin_cases a <;> rfl

/-! ## The payload as mathematics -/

/-- The payload is the matrix product (the narrowing of the float type after it is the identity on extended reals). -/
theorem pay_s1 (v0 : Vec Ideal S10000x128 .f32) (v1 : Vec Ideal S128x128 .f32) :
    k0_pay1 v0 v1 = mm (v0 : Mat 10000 128) (v1 : Mat 128 128) := by
  unfold k0_pay1
  funext j
  exact matmul_zero_apply (M := 10000) (K := 128) (N := 128) (φ₁ := .f32) (φ₂ := .f32) none v0 v1 j

/-! ## Every window's one block is its whole array -/

/-- The block indices: all zero (there is no grid). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  fun _ => ⟨rfl, rfl, rfl, rfl, rfl, rfl⟩

/-- The left operand's block is the whole array. -/
theorem blk_x (c : Dev nD) (t : Fin cfg0.N) : (iblk0 V c 0 t : Mat 10000 128) = (V c main_arg0 : Mat 10000 128) := by
  obtain ⟨e0, e1, -⟩ := idx_facts t
  funext y
  unfold iblk0
  rw [View.read_apply]
  show V c main_arg0 _ = V c main_arg0 y
  congr 1
  funext a
  apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The right operand's block is the whole array. -/
theorem blk_w (c : Dev nD) (t : Fin cfg0.N) : (iblk0 V c 1 t : Mat 128 128) = (V c main_arg2 : Mat 128 128) := by
  obtain ⟨-, -, e0, e1, -⟩ := idx_facts t
  funext y
  unfold iblk0
  rw [View.read_apply]
  show V c main_arg2 _ = V c main_arg2 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The output window's block of a whole-array function is the function. -/
theorem read_s1 (G : Mat 10000 128) (t : Fin cfg0.N) :
    (((cfg0.win 2).blk t).view.read (Elt Ideal) G : Mat 10000 128) = G := by
  obtain ⟨-, -, -, -, e0, e1⟩ := idx_facts t
  funext y
  rw [View.read_apply]
  show G _ = G y
  congr 1
  funext a
  apply Fin.ext
  match a with
  | ⟨0, _⟩ => show win0_2.index t (0 : Fin 2) * 10000 + 1 * (y 0).val = (y 0).val; rw [e0]; omega
  | ⟨1, _⟩ => show win0_2.index t (1 : Fin 2) * 128 + 1 * (y 1).val = (y 1).val; rw [e1]; omega

/-! ## What the one point writes back, and the array after the launch -/

/-- The point writes back the product of the two arrays. -/
theorem flushed_s1 (c : Dev nD) (t : Fin cfg0.N) :
    (dat0 (F := Ideal) V c).flushed 2 t = ((cfg0.win 2).blk t).view.read (Elt Ideal)
      (mm (V c main_arg0 : Mat 10000 128) (V c main_arg2 : Mat 128 128)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [pay_s1, blk_x, blk_w, read_s1]
  rfl

/-- An index of the output array is in the point's block iff each coordinate is in the block's range. -/
theorem mem_blk_s1 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v20).slice (win0_2.rect t)).set ↔ _
  rw [View.set_slice_whole, Rect.mem_set_unit]
  exact Iff.rfl

/-- The one block is the whole array. -/
theorem cover_s1 (i : S10000x128.Idx) :
    ∃ t : Fin cfg0.N, (cfg0.win 2).flush t = true ∧ i ∈ ((cfg0.win 2).blk t).view.set := by
  refine ⟨t0_0, flush0_2 _, ?_⟩
  obtain ⟨-, -, -, -, e0, e1⟩ := idx_facts t0_0
  have h0 : (i 0).val < 10000 := (i 0).isLt
  have h1 : (i 1).val < 128 := (i 1).isLt
  rw [mem_blk_s1]
  intro a
  match a with
  | ⟨0, _⟩ => show win0_2.index t0_0 (0 : Fin 2) * 10000 ≤ (i 0).val ∧ (i 0).val < win0_2.index t0_0 (0 : Fin 2) * 10000 + 10000; rw [e0]; omega
  | ⟨1, _⟩ => show win0_2.index t0_0 (1 : Fin 2) * 128 ≤ (i 1).val ∧ (i 1).val < win0_2.index t0_0 (1 : Fin 2) * 128 + 128; rw [e1]; omega

theorem final_s1 (c : Dev nD) :
    (dat0 (F := Ideal) V c).arrAt 2 cfg0.N = mm (V c main_arg0) (V c main_arg2) :=
  (dat0 (F := Ideal) V c).arrAt_eq_of_cover 2 (mm (V c main_arg0 : Mat 10000 128) (V c main_arg2 : Mat 128 128))
    (fun t _ => flushed_s1 V c t) cover_s1

end Cert.KernelIdeal.Region0

end
-- ==== Proof.Region1.lean ====
import proofs.«114499_g16518444220475_cont_week2b_302_24_alg».proof.Proof.Gen.KernelIdeal.Frame
import proofs.«114499_g16518444220475_cont_week2b_302_24_alg».proof.Proof.Spec
import Idealize.ShloMosaic.Lib.Pipeline.Value
import Idealize.ShloMosaic.Lib.ValueLayout

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.Gcn Cert.PlainDot

-- the buffer contents when the launch is entered: any contents at all
variable (V : (c : Dev nD) → (b : Ref sig .tc) → Buf (Elt Ideal) ((c : Thread nD τ).loc b))

theorem hz : (![0, 0] : Fin 2 → Nat) = fun _ => 0 := funext fun a => by fin_cases a <;> rfl

/-! ## The payloads as mathematics -/

/-- The first payload is a narrowing of the float type: the identity on extended reals. -/
theorem pay_adj (v0 : Vec Ideal S200x10000 .f32) : k1_pay1 v0 = v0 := rfl

/-- The second payload is one layer. -/
theorem pay_x11 (v0 : Vec Ideal S200x10000 .f32) (v3 : Vec Ideal S10000x128 .bf16) (v6 : Vec Ideal S1x128 .f32) :
    k1_pay2 v0 v3 v6 = lay (v0 : Mat 200 10000) (v3 : Mat 10000 128) (v6 : Mat 1 128) := by
  unfold k1_pay2
  simp only [shapeCast_self, pay_adj]
  exact congrArg (fun Z : Mat 200 128 => lgs Z)
    (matmul_add_row_eq (M := 200) (K := 10000) (N := 128) (φ₁ := .f32) (φ₂ := .bf16) none v0 v3 v6 broadcasts_S1x128_S200x128)

/-- The third payload is the layer times the weight. -/
theorem pay_s2 (v0 : Vec Ideal S200x10000 .f32) (v3 : Vec Ideal S10000x128 .bf16) (v6 : Vec Ideal S1x128 .f32) (v13 : Vec Ideal S128x128 .bf16) :
    k1_pay3 v0 v3 v6 v13 = mm (lay (v0 : Mat 200 10000) (v3 : Mat 10000 128) (v6 : Mat 1 128)) (v13 : Mat 128 128) := by
  unfold k1_pay3
  simp only [shapeCast_self, pay_x11]
  funext j
  exact matmul_zero_apply (M := 200) (K := 128) (N := 128) (φ₁ := .bf16) (φ₂ := .bf16) none
    (lay (v0 : Mat 200 10000) (v3 : Mat 10000 128) (v6 : Mat 1 128)) v13 j

/-! ## Where each window's block sits in its array -/

/-- The block indices over the grid: the row-blocked windows are at block row t, column block 0; the whole
    windows are at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 50 := t.isLt

/-- The adjacency window's block at point t is rows 200 t … 200 t + 199 of the matrix. -/
theorem blk_adj (c : Dev nD) (t : Fin cfg1.N) (p : Fin 200) (k : Fin 10000) (h : 200 * t.val + p.val < 10000) :
    (iblk1 V c 0 t : Mat 200 10000) (ix2 p k) = (V c main_arg1 : Mat 10000 10000) (ix2 ⟨200 * t.val + p.val, h⟩ k) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 200 + 1 * p.val = 200 * t.val + p.val; rw [e0]; omega
  | ⟨1, _⟩ => show win1_0.index t (1 : Fin 2) * 10000 + 1 * k.val = k.val; rw [e1]; omega

/-- The support window's block is the whole array at every point. -/
theorem blk_s1 (c : Dev nD) (t : Fin cfg1.N) : (iblk1 V c 1 t : Mat 10000 128) = (V c main_v20 : Mat 10000 128) := by
  obtain ⟨-, -, e0, e1, -⟩ := idx_facts t
  funext y
  unfold iblk1
  rw [View.read_apply]
  show V c main_v20 _ = V c main_v20 y
  congr 1
  funext a
  apply Fin.ext
  match a with
  | ⟨0, _⟩ => show win1_1.index t (0 : Fin 2) * 10000 + 1 * (y 0).val = (y 0).val; rw [e0]; omega
  | ⟨1, _⟩ => show win1_1.index t (1 : Fin 2) * 128 + 1 * (y 1).val = (y 1).val; rw [e1]; omega

/-- The bias window's block is the whole row at every point. -/
theorem blk_b (c : Dev nD) (t : Fin cfg1.N) : (iblk1 V c 2 t : Mat 1 128) = (V c main_v0 : Mat 1 128) := by
  obtain ⟨-, -, -, -, e0, e1, -⟩ := idx_facts t
  funext y
  unfold iblk1
  rw [View.read_apply]
  show V c main_v0 _ = V c main_v0 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The weight window's block is the whole array at every point. -/
theorem blk_w (c : Dev nD) (t : Fin cfg1.N) : (iblk1 V c 3 t : Mat 128 128) = (V c main_v8 : Mat 128 128) := by
  obtain ⟨-, -, -, -, -, -, e0, e1, -⟩ := idx_facts t
  funext y
  unfold iblk1
  rw [View.read_apply]
  show V c main_v8 _ = V c main_v8 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-! ## An output block read off a whole-array function -/

/-- Block t of a 10000 x 10000 array under the first output window: rows 200 t …. -/
theorem read_adj (G : Mat 10000 10000) (t : Fin cfg1.N) (p : Fin 200) (k : Fin 10000) (h : 200 * t.val + p.val < 10000) :
    (((cfg1.win 4).blk t).view.read (Elt Ideal) G : Mat 200 10000) (ix2 p k) = G (ix2 ⟨200 * t.val + p.val, h⟩ k) := by
  obtain ⟨-, -, -, -, -, -, -, -, e0, e1, -⟩ := idx_facts t
  rw [View.read_apply]
  show G _ = G _
  congr 1
  funext a
  apply Fin.ext
  match a with
  | ⟨0, _⟩ => show win1_4.index t (0 : Fin 2) * 200 + 1 * p.val = 200 * t.val + p.val; rw [e0]; omega
  | ⟨1, _⟩ => show win1_4.index t (1 : Fin 2) * 10000 + 1 * k.val = k.val; rw [e1]; omega

/-- Block t of a 10000 x 128 array under the second output window: rows 200 t …. -/
theorem read_x11 (G : Mat 10000 128) (t : Fin cfg1.N) (p : Fin 200) (q : Fin 128) (h : 200 * t.val + p.val < 10000) :
    (((cfg1.win 5).blk t).view.read (Elt Ideal) G : Mat 200 128) (ix2 p q) = G (ix2 ⟨200 * t.val + p.val, h⟩ q) := by
  obtain ⟨-, -, -, -, -, -, -, -, -, -, e0, e1, -⟩ := idx_facts t
  rw [View.read_apply]
  show G _ = G _
  congr 1
  funext a
  apply Fin.ext
  match a with
  | ⟨0, _⟩ => show win1_5.index t (0 : Fin 2) * 200 + 1 * p.val = 200 * t.val + p.val; rw [e0]; omega
  | ⟨1, _⟩ => show win1_5.index t (1 : Fin 2) * 128 + 1 * q.val = q.val; rw [e1]; omega

/-- Block t of a 10000 x 128 array under the third output window: rows 200 t …. -/
theorem read_s2 (G : Mat 10000 128) (t : Fin cfg1.N) (p : Fin 200) (q : Fin 128) (h : 200 * t.val + p.val < 10000) :
    (((cfg1.win 6).blk t).view.read (Elt Ideal) G : Mat 200 128) (ix2 p q) = G (ix2 ⟨200 * t.val + p.val, h⟩ q) := by
  obtain ⟨-, -, -, -, -, -, -, -, -, -, -, -, e0, e1⟩ := idx_facts t
  rw [View.read_apply]
  show G _ = G _
  congr 1
  funext a
  apply Fin.ext
  match a with
  | ⟨0, _⟩ => show win1_6.index t (0 : Fin 2) * 200 + 1 * p.val = 200 * t.val + p.val; rw [e0]; omega
  | ⟨1, _⟩ => show win1_6.index t (1 : Fin 2) * 128 + 1 * q.val = q.val; rw [e1]; omega

/-! ## A layer row by row -/

/-- A row of a layer needs that row of the adjacency matrix only. -/
theorem lay_rows (A : Mat 10000 10000) (A' : Mat 200 10000) (S : Mat 10000 128) (b : Mat 1 128) (p : Fin 200) (r : Fin 10000)
    (hA : ∀ k : Fin 10000, A' (ix2 p k) = A (ix2 r k)) (q : Fin 128) :
    lay A' S b (ix2 p q) = lay A S b (ix2 r q) := by
  show Ideal.logistic ((∑ k : Fin 10000, A' (ix2 p k) * S (ix2 k q)) + b (ix2 (0 : Fin 1) q))
    = Ideal.logistic ((∑ k : Fin 10000, A (ix2 r k) * S (ix2 k q)) + b (ix2 (0 : Fin 1) q))
  simp only [hA]

/-- A row of a layer's product with a weight needs that row of the adjacency matrix only. -/
theorem mm_lay_rows (A : Mat 10000 10000) (A' : Mat 200 10000) (S : Mat 10000 128) (b : Mat 1 128) (W : Mat 128 128) (p : Fin 200) (r : Fin 10000)
    (hA : ∀ k : Fin 10000, A' (ix2 p k) = A (ix2 r k)) (q : Fin 128) :
    mm (lay A' S b) W (ix2 p q) = mm (lay A S b) W (ix2 r q) := by
  show (∑ k : Fin 128, lay A' S b (ix2 p k) * W (ix2 k q)) = ∑ k : Fin 128, lay A S b (ix2 r k) * W (ix2 k q)
  refine Finset.sum_congr rfl fun k _ => ?_
  rw [lay_rows A A' S b p r hA k]

/-! ## What a point writes back -/

/-- Point t writes back block t of the adjacency matrix. -/
theorem flushed_adj (c : Dev nD) (t : Fin cfg1.N) :
    (dat1 (F := Ideal) V c).flushed 4 t = ((cfg1.win 4).blk t).view.read (Elt Ideal) (V c main_arg1 : Mat 10000 10000) := by
  show (cfg1.win 4).cut (grid1.coords t) ((dat1 V c).after 4 t) = _
  rw [after1_4]
  unfold out1_4
  rw [View.canon_unit_zero hz]
  simp only [View.ld_unit_zero (S := S200x10000) hz]
  rw [pay_adj]
  funext j
  obtain ⟨p, k, rfl⟩ : ∃ (p : Fin 200) (k : Fin 10000), j = ix2 p k := ⟨j 0, j 1, eq_ix2 j⟩
  have h : 200 * t.val + p.val < 10000 := by have := t_lt t; omega
  rw [read_adj _ t p k h]
  exact blk_adj V c t p k h

/-- Point t writes back block t of the layer. -/
theorem flushed_x11 (c : Dev nD) (t : Fin cfg1.N) :
    (dat1 (F := Ideal) V c).flushed 5 t = ((cfg1.win 5).blk t).view.read (Elt Ideal)
      (lay (V c main_arg1 : Mat 10000 10000) (V c main_v20 : Mat 10000 128) (V c main_v0 : Mat 1 128)) := by
  show (cfg1.win 5).cut (grid1.coords t) ((dat1 V c).after 5 t) = _
  rw [after1_5]
  unfold out1_5
  rw [View.canon_unit_zero hz]
  simp only [View.ld_unit_zero (S := S200x10000) hz, View.ld_unit_zero (S := S10000x128) hz, View.ld_unit_zero (S := S1x128) hz]
  rw [pay_x11, blk_s1, blk_b]
  funext j
  obtain ⟨p, q, rfl⟩ : ∃ (p : Fin 200) (q : Fin 128), j = ix2 p q := ⟨j 0, j 1, eq_ix2 j⟩
  have h : 200 * t.val + p.val < 10000 := by have := t_lt t; omega
  rw [read_x11 _ t p q h]
  exact lay_rows _ _ _ _ p _ (fun k => blk_adj V c t p k h) q

/-- Point t writes back block t of the layer's product with the weight. -/
theorem flushed_s2 (c : Dev nD) (t : Fin cfg1.N) :
    (dat1 (F := Ideal) V c).flushed 6 t = ((cfg1.win 6).blk t).view.read (Elt Ideal)
      (mm (lay (V c main_arg1 : Mat 10000 10000) (V c main_v20 : Mat 10000 128) (V c main_v0 : Mat 1 128)) (V c main_v8 : Mat 128 128)) := by
  show (cfg1.win 6).cut (grid1.coords t) ((dat1 V c).after 6 t) = _
  rw [after1_6]
  unfold out1_6
  rw [View.canon_unit_zero hz]
  simp only [View.ld_unit_zero (S := S200x10000) hz, View.ld_unit_zero (S := S10000x128) hz, View.ld_unit_zero (S := S1x128) hz,
    View.ld_unit_zero (S := S128x128) hz]
  rw [pay_s2, blk_s1, blk_b, blk_w]
  funext j
  obtain ⟨p, q, rfl⟩ : ∃ (p : Fin 200) (q : Fin 128), j = ix2 p q := ⟨j 0, j 1, eq_ix2 j⟩
  have h : 200 * t.val + p.val < 10000 := by have := t_lt t; omega
  rw [read_s2 _ t p q h]
  exact mm_lay_rows _ _ _ _ _ p _ (fun k => blk_adj V c t p k h) q

/-! ## The blocks cover the arrays -/

/-- An index of the first output array is in point t's block iff each coordinate is in the block's range. -/
theorem mem_blk_adj (t : Fin cfg1.N) (i : S10000x10000.Idx) :
    i ∈ ((cfg1.win 4).blk t).view.set ↔ ∀ a : Fin 2, win1_4.index t a * S200x10000.size a ≤ (i a).val ∧ (i a).val < win1_4.index t a * S200x10000.size a + S200x10000.size a := by
  show i ∈ ((View.whole main_v21_0).slice (win1_4.rect t)).set ↔ _
  rw [View.set_slice_whole, Rect.mem_set_unit]
  exact Iff.rfl

/-- The same for the second output array. -/
theorem mem_blk_x11 (t : Fin cfg1.N) (i : S10000x128.Idx) :
    i ∈ ((cfg1.win 5).blk t).view.set ↔ ∀ a : Fin 2, win1_5.index t a * S200x128.size a ≤ (i a).val ∧ (i a).val < win1_5.index t a * S200x128.size a + S200x128.size a := by
  show i ∈ ((View.whole main_v21_1).slice (win1_5.rect t)).set ↔ _
  rw [View.set_slice_whole, Rect.mem_set_unit]
  exact Iff.rfl

/-- The same for the third output array. -/
theorem mem_blk_s2 (t : Fin cfg1.N) (i : S10000x128.Idx) :
    i ∈ ((cfg1.win 6).blk t).view.set ↔ ∀ a : Fin 2, win1_6.index t a * S200x128.size a ≤ (i a).val ∧ (i a).val < win1_6.index t a * S200x128.size a + S200x128.size a := by
  show i ∈ ((View.whole main_v21_2).slice (win1_6.rect t)).set ↔ _
  rw [View.set_slice_whole, Rect.mem_set_unit]
  exact Iff.rfl

/-- The point whose block holds row r: r / 200. -/
def ptOf (r : Fin 10000) : Fin cfg1.N := ⟨r.val / 200, by rw [show cfg1.N = 50 from N_1]; have := r.isLt; omega⟩

theorem ptOf_val (r : Fin 10000) : (ptOf r).val = r.val / 200 := rfl

/-- Every index of the first output array is in the block of the point its row belongs to. -/
theorem cover_adj (i : S10000x10000.Idx) :
    ∃ t : Fin cfg1.N, (cfg1.win 4).flush t = true ∧ i ∈ ((cfg1.win 4).blk t).view.set := by
  refine ⟨ptOf (i 0), flush1_4 _, ?_⟩
  obtain ⟨-, -, -, -, -, -, -, -, e0, e1, -⟩ := idx_facts (ptOf (i 0))
  have hv := ptOf_val (i 0)
  have h0 : (i 0).val < 10000 := (i 0).isLt
  have h1 : (i 1).val < 10000 := (i 1).isLt
  rw [mem_blk_adj]
  intro a
  match a with
  | ⟨0, _⟩ => show win1_4.index (ptOf (i 0)) (0 : Fin 2) * 200 ≤ (i 0).val ∧ (i 0).val < win1_4.index (ptOf (i 0)) (0 : Fin 2) * 200 + 200; rw [e0, hv]; omega
  | ⟨1, _⟩ => show win1_4.index (ptOf (i 0)) (1 : Fin 2) * 10000 ≤ (i 1).val ∧ (i 1).val < win1_4.index (ptOf (i 0)) (1 : Fin 2) * 10000 + 10000; rw [e1]; omega

/-- Every index of the second output array is in the block of the point its row belongs to. -/
theorem cover_x11 (i : S10000x128.Idx) :
    ∃ t : Fin cfg1.N, (cfg1.win 5).flush t = true ∧ i ∈ ((cfg1.win 5).blk t).view.set := by
  refine ⟨ptOf (i 0), flush1_5 _, ?_⟩
  obtain ⟨-, -, -, -, -, -, -, -, -, -, e0, e1, -⟩ := idx_facts (ptOf (i 0))
  have hv := ptOf_val (i 0)
  have h0 : (i 0).val < 10000 := (i 0).isLt
  have h1 : (i 1).val < 128 := (i 1).isLt
  rw [mem_blk_x11]
  intro a
  match a with
  | ⟨0, _⟩ => show win1_5.index (ptOf (i 0)) (0 : Fin 2) * 200 ≤ (i 0).val ∧ (i 0).val < win1_5.index (ptOf (i 0)) (0 : Fin 2) * 200 + 200; rw [e0, hv]; omega
  | ⟨1, _⟩ => show win1_5.index (ptOf (i 0)) (1 : Fin 2) * 128 ≤ (i 1).val ∧ (i 1).val < win1_5.index (ptOf (i 0)) (1 : Fin 2) * 128 + 128; rw [e1]; omega

/-- Every index of the third output array is in the block of the point its row belongs to. -/
theorem cover_s2 (i : S10000x128.Idx) :
    ∃ t : Fin cfg1.N, (cfg1.win 6).flush t = true ∧ i ∈ ((cfg1.win 6).blk t).view.set := by
  refine ⟨ptOf (i 0), flush1_6 _, ?_⟩
  obtain ⟨-, -, -, -, -, -, -, -, -, -, -, -, e0, e1⟩ := idx_facts (ptOf (i 0))
  have hv := ptOf_val (i 0)
  have h0 : (i 0).val < 10000 := (i 0).isLt
  have h1 : (i 1).val < 128 := (i 1).isLt
  rw [mem_blk_s2]
  intro a
  match a with
  | ⟨0, _⟩ => show win1_6.index (ptOf (i 0)) (0 : Fin 2) * 200 ≤ (i 0).val ∧ (i 0).val < win1_6.index (ptOf (i 0)) (0 : Fin 2) * 200 + 200; rw [e0, hv]; omega
  | ⟨1, _⟩ => show win1_6.index (ptOf (i 0)) (1 : Fin 2) * 128 ≤ (i 1).val ∧ (i 1).val < win1_6.index (ptOf (i 0)) (1 : Fin 2) * 128 + 128; rw [e1]; omega

/-! ## The arrays after the launch -/

theorem final_adj16 (c : Dev nD) :
    (dat1 (F := Ideal) V c).arrAt 4 cfg1.N = V c main_arg1 :=
  (dat1 (F := Ideal) V c).arrAt_eq_of_cover 4 (V c main_arg1 : Mat 10000 10000) (fun t _ => flushed_adj V c t) cover_adj

theorem final_x11 (c : Dev nD) :
    (dat1 (F := Ideal) V c).arrAt 5 cfg1.N = lay (V c main_arg1) (V c main_v20) (V c main_v0) :=
  (dat1 (F := Ideal) V c).arrAt_eq_of_cover 5 (lay (V c main_arg1 : Mat 10000 10000) (V c main_v20 : Mat 10000 128) (V c main_v0 : Mat 1 128))
    (fun t _ => flushed_x11 V c t) cover_x11

theorem final_s2 (c : Dev nD) :
    (dat1 (F := Ideal) V c).arrAt 6 cfg1.N = mm (lay (V c main_arg1) (V c main_v20) (V c main_v0)) (V c main_v8) :=
  (dat1 (F := Ideal) V c).arrAt_eq_of_cover 6
    (mm (lay (V c main_arg1 : Mat 10000 10000) (V c main_v20 : Mat 10000 128) (V c main_v0 : Mat 1 128)) (V c main_v8 : Mat 128 128))
    (fun t _ => flushed_s2 V c t) cover_s2

end Cert.KernelIdeal.Region1

end
-- ==== Proof.Region2.lean ====
/-
  The third launch: ten points, each computing 1000 rows of the two outputs from 1000 rows of the adjacency matrix
  and of x11, the whole support, the whole 256 x 256 weight and the two bias rows.

  The body forms, on its block of rows, the layer σ(a · s2 + b2), sets it to the right of the x11 block, multiplies
  the 256-wide result by the weight, and stores the product's left 128 columns plus the bias row in the first
  output and its right 128 columns in the second.  Row r of every quantity depends only on row r of the
  adjacency matrix and of x11, so the blocks are the restrictions of one function of the whole arrays, and the ten
  blocks of 1000 rows tile the 10000 rows of each output.
-/
import proofs.«114499_g16518444220475_cont_week2b_302_24_alg».proof.Proof.Gen.KernelIdeal.Frame
import proofs.«114499_g16518444220475_cont_week2b_302_24_alg».proof.Proof.Spec
import Idealize.ShloMosaic.Lib.Pipeline.Value
import Idealize.ShloMosaic.Lib.ValueLayout

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.Gcn Cert.PlainDot

/-! ## The body's payloads as mathematics -/

/-- Two 128-column halves side by side, read at a row and a column of the 256-wide array. -/
theorem concat_apply (x y : FVec Ideal S1000x128 .f32) (p : Fin 1000) (k : Fin 256) :
    concatenate S1000x256 1 [⟨S1000x128, truncf .bf16 x bitsLt_bf16_f32⟩,
        ⟨S1000x128, truncf .bf16 y bitsLt_bf16_f32⟩] concatenates_S1000x128_S1000x128_S1000x256_d1 (ix2 p k)
      = (catCols (x : Mat 1000 128) (y : Mat 1000 128) : Mat 1000 256) (ix2 p k) := by
  simp only [catCols]
  by_cases h : k.val < 128
  · rw [dif_pos (show ((ix2 p k : (⟨2, ![1000, 256]⟩ : Shape).Idx) 1).val < 128 from h)]
    rw [concatenate_pair_apply_left (s₁ := S1000x128) (s₂ := S1000x128) (1 : Fin S1000x256.rank) _ _ _ (ix2 p k) rfl (ix2 p (⟨k.val, h⟩ : Fin 128) : S1000x128.Idx)
      (fun b => by match b with | ⟨0, _⟩ => rfl | ⟨1, _⟩ => rfl)]
    rw [truncf_apply]
  · have h2 : k.val - 128 < 128 := by have := k.isLt; omega
    rw [dif_neg (show ¬((ix2 p k : (⟨2, ![1000, 256]⟩ : Shape).Idx) 1).val < 128 from h),
      dif_pos (show ((ix2 p k : (⟨2, ![1000, 256]⟩ : Shape).Idx) 1).val - 128 < 128 from h2)]
    rw [concatenate_pair_apply_right (s₁ := S1000x128) (s₂ := S1000x128) (1 : Fin S1000x256.rank) _ _ _ (ix2 p k) rfl rfl (ix2 p (⟨k.val - 128, h2⟩ : Fin 128) : S1000x128.Idx)
      (fun b hb => by match b with | ⟨0, _⟩ => rfl | ⟨1, _⟩ => exact absurd rfl hb)
      (by show (k.val - 128) + 128 = k.val; omega)]
    rw [truncf_apply]

/-- The layer computed on a block of rows: the logistic function of the product plus the bias row. -/
theorem layer_eq (v0 : Vec Ideal S1000x10000 .bf16) (v2 : Vec Ideal S10000x128 .bf16) (v5 : Vec Ideal S1x128 .f32) :
    logistic (F := Ideal) (addf (matmul dot_S1000x10000_S10000x128_S1000x128_1_0_0_1_n_n none
          (shapeCast S1000x10000 v0 shapeCasts_S1000x10000_S1000x10000 : FVec Ideal S1000x10000 .bf16)
          (shapeCast S10000x128 v2 shapeCasts_S10000x128_S10000x128 : FVec Ideal S10000x128 .bf16) (constant S1000x128 .f32 0x00000000#32))
        (broadcastTo S1000x128 (shapeCast S1x128 v5 shapeCasts_S1x128_S1x128 : FVec Ideal S1x128 .f32) broadcasts_S1x128_S1000x128))
      = (lay (v0 : Mat 1000 10000) v2 v5 : Mat 1000 128) := by
  rw [shapeCast_self, shapeCast_self, shapeCast_self,
    show dot_S1000x10000_S10000x128_S1000x128_1_0_0_1_n_n = DotDims.plain 1000 10000 128 from rfl, matmul_add_row_eq]
  rfl

/-- The body's first product is the concatenation [x11 block | layer] times the weight. -/
theorem pay1_eq (v0 : Vec Ideal S1000x10000 .bf16) (v2 : Vec Ideal S10000x128 .bf16) (v5 : Vec Ideal S1x128 .f32)
    (v10 : Vec Ideal S1000x128 .f32) (v15 : Vec Ideal S256x256 .bf16) :
    k2_pay1 v0 v2 v5 v10 v15 = mm (g2cat (v0 : Mat 1000 10000) v2 v5 v10) v15 := by
  funext j
  obtain ⟨p, q, rfl⟩ : ∃ (p : Fin 1000) (q : Fin 256), j = ix2 p q := ⟨j 0, j 1, eq_ix2 j⟩
  unfold k2_pay1
  simp only [shapeCast_self]
  rw [show dot_S1000x256_S256x256_S1000x256_1_0_0_1_n_n = DotDims.plain 1000 256 256 from rfl]
  show FloatOps.matmul (DotDims.plain 1000 256 256) none _ _ (constant (⟨2, ![1000, 256]⟩ : Shape) .f32 0x00000000#32) (ix2 p q) = _
  rw [matmul_zero_apply]
  unfold mm g2cat
  refine Finset.sum_congr rfl fun k _ => ?_
  congr 1
  rw [concat_apply, shapeCast_self, layer_eq]

/-- What the body stores in the first output: the left 128 columns of the product, plus the bias row. -/
theorem pay2_eq (v0 : Vec Ideal S1000x10000 .bf16) (v2 : Vec Ideal S10000x128 .bf16) (v5 : Vec Ideal S1x128 .f32)
    (v10 : Vec Ideal S1000x128 .f32) (v15 : Vec Ideal S256x256 .bf16) (v19 : Vec Ideal S1x128 .f32) :
    k2_pay2 v0 v2 v5 v10 v15 v19 = g2l (v0 : Mat 1000 10000) v2 v5 v10 v15 v19 := by
  funext j
  obtain ⟨p, q, rfl⟩ : ∃ (p : Fin 1000) (q : Fin 128), j = ix2 p q := ⟨j 0, j 1, eq_ix2 j⟩
  unfold k2_pay2
  rw [pay1_eq]
  simp only [shapeCast_self]
  rw [addf_apply, broadcastTo_1b_ab_apply]
  unfold g2l
  congr 1
  have hq : 0 + q.val < 256 := by have := q.isLt; omega
  rw [extractStridedSlice_apply _ _ _ (ix2 p q) (ix2 p (⟨0 + q.val, hq⟩ : Fin 256) : S1000x256.Idx)
    (fun a => by match a with | ⟨0, _⟩ => exact (Nat.zero_add _).symm | ⟨1, _⟩ => rfl)]
  simp only [colsFrom]
  rw [dif_pos (show 0 + ((ix2 p q : (⟨2, ![1000, 128]⟩ : Shape).Idx) 1).val < 256 from hq)]

/-- What the body stores in the second output: the right 128 columns of the product. -/
theorem pay3_eq (v0 : Vec Ideal S1000x10000 .bf16) (v2 : Vec Ideal S10000x128 .bf16) (v5 : Vec Ideal S1x128 .f32)
    (v10 : Vec Ideal S1000x128 .f32) (v15 : Vec Ideal S256x256 .bf16) :
    k2_pay3 v0 v2 v5 v10 v15 = g2s (v0 : Mat 1000 10000) v2 v5 v10 v15 := by
  funext j
  obtain ⟨p, q, rfl⟩ : ∃ (p : Fin 1000) (q : Fin 128), j = ix2 p q := ⟨j 0, j 1, eq_ix2 j⟩
  unfold k2_pay3
  rw [pay1_eq, truncf_apply]
  unfold g2s
  have hq : 128 + q.val < 256 := by have := q.isLt; omega
  rw [extractStridedSlice_apply _ _ _ (ix2 p q) (ix2 p (⟨128 + q.val, hq⟩ : Fin 256) : S1000x256.Idx)
    (fun a => by match a with | ⟨0, _⟩ => exact (Nat.zero_add _).symm | ⟨1, _⟩ => rfl)]
  simp only [colsFrom]
  rw [dif_pos (show 128 + ((ix2 p q : (⟨2, ![1000, 128]⟩ : Shape).Idx) 1).val < 256 from hq)]

/-! ## Restricting the rows: a block of rows of the inputs gives the same rows of the result -/

section Rows
variable {M M' K : Nat}

/-- A layer computed from some rows of the adjacency matrix is those rows of the layer. -/
theorem lay_rows (a : Mat M K) (a' : Mat M' K) (s : Mat K 128) (b : Mat 1 128) (r : Fin M' → Fin M)
    (ha : ∀ p k, a' (ix2 p k) = a (ix2 (r p) k)) (p : Fin M') (q : Fin 128) :
    lay a' s b (ix2 p q) = lay a s b (ix2 (r p) q) := by
  show Ideal.logistic ((∑ k : Fin K, a' (ix2 p k) * s (ix2 k q)) + b (ix2 (0 : Fin 1) q))
    = Ideal.logistic ((∑ k : Fin K, a (ix2 (r p) k) * s (ix2 k q)) + b (ix2 (0 : Fin 1) q))
  simp only [ha]

/-- The same for the 256-wide concatenation. -/
theorem g2cat_rows (a : Mat M K) (a' : Mat M' K) (s2 : Mat K 128) (b2 : Mat 1 128) (x : Mat M 128) (x' : Mat M' 128)
    (r : Fin M' → Fin M) (ha : ∀ p k, a' (ix2 p k) = a (ix2 (r p) k)) (hx : ∀ p q, x' (ix2 p q) = x (ix2 (r p) q))
    (p : Fin M') (k : Fin 256) :
    (g2cat a' s2 b2 x' : Mat M' 256) (ix2 p k) = (g2cat a s2 b2 x : Mat M 256) (ix2 (r p) k) := by
  unfold g2cat
  simp only [catCols]
  by_cases h : k.val < 128
  · rw [dif_pos (show ((ix2 p k : (⟨2, ![M', 256]⟩ : Shape).Idx) 1).val < 128 from h),
      dif_pos (show ((ix2 (r p) k : (⟨2, ![M, 256]⟩ : Shape).Idx) 1).val < 128 from h)]
    exact hx p ⟨k.val, h⟩
  · have h2 : k.val - 128 < 128 := by have := k.isLt; omega
    rw [dif_neg (show ¬((ix2 p k : (⟨2, ![M', 256]⟩ : Shape).Idx) 1).val < 128 from h),
      dif_neg (show ¬((ix2 (r p) k : (⟨2, ![M, 256]⟩ : Shape).Idx) 1).val < 128 from h),
      dif_pos (show ((ix2 p k : (⟨2, ![M', 256]⟩ : Shape).Idx) 1).val - 128 < 128 from h2),
      dif_pos (show ((ix2 (r p) k : (⟨2, ![M, 256]⟩ : Shape).Idx) 1).val - 128 < 128 from h2)]
    exact lay_rows a a' s2 b2 r ha p ⟨k.val - 128, h2⟩

/-- The same for the concatenation's product with the weight. -/
theorem mm_g2cat_rows (a : Mat M K) (a' : Mat M' K) (s2 : Mat K 128) (b2 : Mat 1 128) (x : Mat M 128) (x' : Mat M' 128)
    (wc : Mat 256 256) (r : Fin M' → Fin M) (ha : ∀ p k, a' (ix2 p k) = a (ix2 (r p) k))
    (hx : ∀ p q, x' (ix2 p q) = x (ix2 (r p) q)) (p : Fin M') (q : Fin 256) :
    mm (g2cat a' s2 b2 x') wc (ix2 p q) = mm (g2cat a s2 b2 x) wc (ix2 (r p) q) := by
  show (∑ k : Fin 256, (g2cat a' s2 b2 x' : Mat M' 256) (ix2 p k) * wc (ix2 k q))
    = ∑ k : Fin 256, (g2cat a s2 b2 x : Mat M 256) (ix2 (r p) k) * wc (ix2 k q)
  refine Finset.sum_congr rfl fun k _ => ?_
  rw [g2cat_rows a a' s2 b2 x x' r ha hx]

/-- The first output computed from some rows of the row-blocked inputs is those rows of the first output. -/
theorem g2l_rows (a : Mat M K) (a' : Mat M' K) (s2 : Mat K 128) (b2 : Mat 1 128) (x : Mat M 128) (x' : Mat M' 128)
    (wc : Mat 256 256) (bl : Mat 1 128) (r : Fin M' → Fin M) (ha : ∀ p k, a' (ix2 p k) = a (ix2 (r p) k))
    (hx : ∀ p q, x' (ix2 p q) = x (ix2 (r p) q)) (j : (⟨2, ![M', 128]⟩ : Shape).Idx) (i : (⟨2, ![M, 128]⟩ : Shape).Idx)
    (h0 : i 0 = r (j 0)) (h1 : i 1 = j 1) :
    g2l a' s2 b2 x' wc bl j = g2l a s2 b2 x wc bl i := by
  obtain ⟨p, q, rfl⟩ : ∃ (p : Fin M') (q : Fin 128), j = ix2 p q := ⟨j 0, j 1, eq_ix2 j⟩
  obtain ⟨p', q', rfl⟩ : ∃ (p' : Fin M) (q' : Fin 128), i = ix2 p' q' := ⟨i 0, i 1, eq_ix2 i⟩
  obtain rfl : p' = r p := h0
  obtain rfl : q' = q := h1
  unfold g2l
  simp only [colsFrom]
  have hq : 0 + q'.val < 256 := by have := q'.isLt; omega
  rw [dif_pos (show 0 + ((ix2 p q' : (⟨2, ![M', 128]⟩ : Shape).Idx) 1).val < 256 from hq),
    dif_pos (show 0 + ((ix2 (r p) q' : (⟨2, ![M, 128]⟩ : Shape).Idx) 1).val < 256 from hq)]
  congr 1
  exact mm_g2cat_rows a a' s2 b2 x x' wc r ha hx p ⟨0 + q'.val, hq⟩

/-- The second output computed from some rows of the row-blocked inputs is those rows of the second output. -/
theorem g2s_rows (a : Mat M K) (a' : Mat M' K) (s2 : Mat K 128) (b2 : Mat 1 128) (x : Mat M 128) (x' : Mat M' 128)
    (wc : Mat 256 256) (r : Fin M' → Fin M) (ha : ∀ p k, a' (ix2 p k) = a (ix2 (r p) k))
    (hx : ∀ p q, x' (ix2 p q) = x (ix2 (r p) q)) (j : (⟨2, ![M', 128]⟩ : Shape).Idx) (i : (⟨2, ![M, 128]⟩ : Shape).Idx)
    (h0 : i 0 = r (j 0)) (h1 : i 1 = j 1) :
    g2s a' s2 b2 x' wc j = g2s a s2 b2 x wc i := by
  obtain ⟨p, q, rfl⟩ : ∃ (p : Fin M') (q : Fin 128), j = ix2 p q := ⟨j 0, j 1, eq_ix2 j⟩
  obtain ⟨p', q', rfl⟩ : ∃ (p' : Fin M) (q' : Fin 128), i = ix2 p' q' := ⟨i 0, i 1, eq_ix2 i⟩
  obtain rfl : p' = r p := h0
  obtain rfl : q' = q := h1
  unfold g2s
  simp only [colsFrom]
  have hq : 128 + q'.val < 256 := by have := q'.isLt; omega
  rw [dif_pos (show 128 + ((ix2 p q' : (⟨2, ![M', 128]⟩ : Shape).Idx) 1).val < 256 from hq),
    dif_pos (show 128 + ((ix2 (r p) q' : (⟨2, ![M, 128]⟩ : Shape).Idx) 1).val < 256 from hq)]
  exact mm_g2cat_rows a a' s2 b2 x x' wc r ha hx p ⟨128 + q'.val, hq⟩

end Rows

/-! ## From blocks to the arrays -/

-- the buffer contents when the launch is entered: any contents at all
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency matrix, the x11 array and both outputs move by one block of
    rows per point; the support, the weight and the two bias rows stay whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem lt_ten (t : Fin cfg2.N) : t.val < 10 := by
  have h : t.val < cfg2.N := t.isLt
  have e : cfg2.N = 10 := N_2
  omega

/-- The array row that row p of point t's block of rows is. -/
def rowAt (t : Fin cfg2.N) (p : Fin 1000) : Fin 10000 := ⟨t.val * 1000 + p.val, by have := lt_ten t; have := p.isLt; omega⟩

/-- The adjacency window's block at point t is rows 1000 t … 1000 t + 999 of the adjacency array. -/
theorem adj_blk (c : Dev nD) (t : Fin cfg2.N) (p : Fin 1000) (k : Fin 10000) :
    (iblk2 V c 0 t : Mat 1000 10000) (ix2 p k) = (V c main_v21_0 : Mat 10000 10000) (ix2 (rowAt t p) k) := by
  obtain ⟨e0, e1, -⟩ := idx_facts t
  show V c main_v21_0 (((cfg2.win 0).blk t).view.emb (ix2 p k)) = V c main_v21_0 (ix2 (rowAt t p) k)
  congr 1
  funext a
  apply Fin.ext
  match a with
  | ⟨0, _⟩ => show win2_0.index t (0 : Fin 2) * 1000 + 1 * p.val = t.val * 1000 + p.val; rw [e0]; omega
  | ⟨1, _⟩ => show win2_0.index t (1 : Fin 2) * 10000 + 1 * k.val = k.val; rw [e1]; omega

/-- The x11 window's block at point t is the same rows of the x11 array. -/
theorem x11_blk (c : Dev nD) (t : Fin cfg2.N) (p : Fin 1000) (q : Fin 128) :
    (iblk2 V c 3 t : Mat 1000 128) (ix2 p q) = (V c main_v21_1 : Mat 10000 128) (ix2 (rowAt t p) q) := by
  obtain ⟨-, -, -, -, -, -, e0, e1, -⟩ := idx_facts t
  show V c main_v21_1 (((cfg2.win 3).blk t).view.emb (ix2 p q)) = V c main_v21_1 (ix2 (rowAt t p) q)
  congr 1
  funext a
  apply Fin.ext
  match a with
  | ⟨0, _⟩ => show win2_3.index t (0 : Fin 2) * 1000 + 1 * p.val = t.val * 1000 + p.val; rw [e0]; omega
  | ⟨1, _⟩ => show win2_3.index t (1 : Fin 2) * 128 + 1 * q.val = q.val; rw [e1]; omega

/-- The support window's block is the whole support array at every point. -/
theorem s2_blk (c : Dev nD) (t : Fin cfg2.N) : (iblk2 V c 1 t : Vec Ideal S10000x128 .bf16) = V c main_v21_2 := by
  obtain ⟨-, -, e0, e1, -⟩ := idx_facts t
  funext y
  show V c main_v21_2 (((cfg2.win 1).blk t).view.emb y) = V c main_v21_2 y
  congr 1
  funext a
  apply Fin.ext
  match a with
  | ⟨0, _⟩ => show win2_1.index t (0 : Fin 2) * 10000 + 1 * (y 0).val = (y 0).val; rw [e0]; omega
  | ⟨1, _⟩ => show win2_1.index t (1 : Fin 2) * 128 + 1 * (y 1).val = (y 1).val; rw [e1]; omega

/-- The first bias row's window is the whole row at every point. -/
theorem b2_blk (c : Dev nD) (t : Fin cfg2.N) : (iblk2 V c 2 t : Vec Ideal S1x128 .f32) = V c main_v2 := by
  obtain ⟨-, -, -, -, e0, e1, -⟩ := idx_facts t
  funext y
  show V c main_v2 (((cfg2.win 2).blk t).view.emb y) = V c main_v2 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The weight's window is the whole weight at every point. -/
theorem wc_blk (c : Dev nD) (t : Fin cfg2.N) : (iblk2 V c 4 t : Vec Ideal S256x256 .bf16) = V c main_v17 := by
  obtain ⟨-, -, -, -, -, -, -, -, e0, e1, -⟩ := idx_facts t
  funext y
  show V c main_v17 (((cfg2.win 4).blk t).view.emb y) = V c main_v17 y
  congr 1
  funext a
  apply Fin.ext
  match a with
  | ⟨0, _⟩ => show win2_4.index t (0 : Fin 2) * 256 + 1 * (y 0).val = (y 0).val; rw [e0]; omega
  | ⟨1, _⟩ => show win2_4.index t (1 : Fin 2) * 256 + 1 * (y 1).val = (y 1).val; rw [e1]; omega

/-- The second bias row's window is the whole row at every point. -/
theorem bl_blk (c : Dev nD) (t : Fin cfg2.N) : (iblk2 V c 5 t : Vec Ideal S1x128 .f32) = V c main_v6 := by
  obtain ⟨-, -, -, -, -, -, -, -, -, -, e0, e1, -⟩ := idx_facts t
  funext y
  show V c main_v6 (((cfg2.win 5).blk t).view.emb y) = V c main_v6 y
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- What point t writes back to the first output is block t of the first output's closed form. -/
theorem l1_flushed (c : Dev nD) (t : Fin cfg2.N) :
    (dat2 (F := Ideal) V c).flushed 6 t = ((cfg2.win 6).blk t).view.read (Elt Ideal)
      (g2l (V c main_v21_0) (V c main_v21_2) (V c main_v2) (V c main_v21_1) (V c main_v17) (V c main_v6)) := by
  show (cfg2.win 6).cut (grid2.coords t) ((dat2 (F := Ideal) V c).after 6 t) = _
  rw [after2_6]
  unfold out2_6
  rw [View.canon_unit_zero hz]
  simp only [View.ld_unit_zero (S := S1000x10000) hz, View.ld_unit_zero (S := S10000x128) hz,
    View.ld_unit_zero (S := S1x128) hz, View.ld_unit_zero (S := S1000x128) hz, View.ld_unit_zero (S := S256x256) hz]
  rw [pay2_eq, s2_blk V c t, b2_blk V c t, wc_blk V c t, bl_blk V c t]
  obtain ⟨-, -, -, -, -, -, -, -, -, -, -, -, e0, e1, -⟩ := idx_facts t
  funext j
  refine g2l_rows (V c main_v21_0) (iblk2 V c 0 t) (V c main_v21_2) (V c main_v2) (V c main_v21_1) (iblk2 V c 3 t)
    (V c main_v17) (V c main_v6) (rowAt t) (adj_blk V c t) (x11_blk V c t) j (((cfg2.win 6).blk t).view.emb j)
    (Fin.ext ?_) (Fin.ext ?_)
  · show win2_6.index t (0 : Fin 2) * 1000 + 1 * (j 0).val = t.val * 1000 + (j 0).val
    rw [e0]; omega
  · show win2_6.index t (1 : Fin 2) * 128 + 1 * (j 1).val = (j 1).val
    rw [e1]; omega

/-- What point t writes back to the second output is block t of the second output's closed form. -/
theorem s3_flushed (c : Dev nD) (t : Fin cfg2.N) :
    (dat2 (F := Ideal) V c).flushed 7 t = ((cfg2.win 7).blk t).view.read (Elt Ideal)
      (g2s (V c main_v21_0) (V c main_v21_2) (V c main_v2) (V c main_v21_1) (V c main_v17)) := by
  show (cfg2.win 7).cut (grid2.coords t) ((dat2 (F := Ideal) V c).after 7 t) = _
  rw [after2_7]
  unfold out2_7
  rw [View.canon_unit_zero hz]
  simp only [View.ld_unit_zero (S := S1000x10000) hz, View.ld_unit_zero (S := S10000x128) hz,
    View.ld_unit_zero (S := S1x128) hz, View.ld_unit_zero (S := S1000x128) hz, View.ld_unit_zero (S := S256x256) hz]
  rw [pay3_eq, s2_blk V c t, b2_blk V c t, wc_blk V c t]
  obtain ⟨-, -, -, -, -, -, -, -, -, -, -, -, -, -, e0, e1⟩ := idx_facts t
  funext j
  refine g2s_rows (V c main_v21_0) (iblk2 V c 0 t) (V c main_v21_2) (V c main_v2) (V c main_v21_1) (iblk2 V c 3 t)
    (V c main_v17) (rowAt t) (adj_blk V c t) (x11_blk V c t) j (((cfg2.win 7).blk t).view.emb j)
    (Fin.ext ?_) (Fin.ext ?_)
  · show win2_7.index t (0 : Fin 2) * 1000 + 1 * (j 0).val = t.val * 1000 + (j 0).val
    rw [e0]; omega
  · show win2_7.index t (1 : Fin 2) * 128 + 1 * (j 1).val = (j 1).val
    rw [e1]; omega

/-- An index of the first output's array is in point t's block iff each coordinate is in the block's range. -/
theorem l1_mem_blk (t : Fin cfg2.N) (i : S10000x128.Idx) :
    i ∈ ((cfg2.win 6).blk t).view.set ↔ ∀ a : Fin 2, win2_6.index t a * S1000x128.size a ≤ (i a).val
      ∧ (i a).val < win2_6.index t a * S1000x128.size a + S1000x128.size a := by
  show i ∈ ((View.whole main_v22_0).slice (win2_6.rect t)).set ↔ _
  rw [View.set_slice_whole, Rect.mem_set_unit]
  exact Iff.rfl

/-- The same for the second output's array. -/
theorem s3_mem_blk (t : Fin cfg2.N) (i : S10000x128.Idx) :
    i ∈ ((cfg2.win 7).blk t).view.set ↔ ∀ a : Fin 2, win2_7.index t a * S1000x128.size a ≤ (i a).val
      ∧ (i a).val < win2_7.index t a * S1000x128.size a + S1000x128.size a := by
  show i ∈ ((View.whole main_v22_1).slice (win2_7.rect t)).set ↔ _
  rw [View.set_slice_whole, Rect.mem_set_unit]
  exact Iff.rfl

/-- The point whose block of rows holds row r: r / 1000. -/
def pointOf (r : Fin 10000) : Fin cfg2.N := ⟨r.val / 1000, by rw [show cfg2.N = 10 from N_2]; have := r.isLt; omega⟩

/-- Every index of the first output's array is in the block of the point its row belongs to. -/
theorem l1_cover (i : S10000x128.Idx) :
    ∃ t : Fin cfg2.N, (cfg2.win 6).flush t = true ∧ i ∈ ((cfg2.win 6).blk t).view.set := by
  have hi0 : (i 0).val < 10000 := (i 0).isLt
  have hi1 : (i 1).val < 128 := (i 1).isLt
  refine ⟨pointOf (i 0), flush2_6 _, ?_⟩
  obtain ⟨-, -, -, -, -, -, -, -, -, -, -, -, e0, e1, -⟩ := idx_facts (pointOf (i 0))
  rw [l1_mem_blk]
  intro a
  match a with
  | ⟨0, _⟩ =>
    show win2_6.index (pointOf (i 0)) (0 : Fin 2) * 1000 ≤ (i 0).val
      ∧ (i 0).val < win2_6.index (pointOf (i 0)) (0 : Fin 2) * 1000 + 1000
    rw [e0]; show (i 0).val / 1000 * 1000 ≤ (i 0).val ∧ (i 0).val < (i 0).val / 1000 * 1000 + 1000; omega
  | ⟨1, _⟩ =>
    show win2_6.index (pointOf (i 0)) (1 : Fin 2) * 128 ≤ (i 1).val
      ∧ (i 1).val < win2_6.index (pointOf (i 0)) (1 : Fin 2) * 128 + 128
    rw [e1]; omega

/-- The same for the second output's array. -/
theorem s3_cover (i : S10000x128.Idx) :
    ∃ t : Fin cfg2.N, (cfg2.win 7).flush t = true ∧ i ∈ ((cfg2.win 7).blk t).view.set := by
  have hi0 : (i 0).val < 10000 := (i 0).isLt
  have hi1 : (i 1).val < 128 := (i 1).isLt
  refine ⟨pointOf (i 0), flush2_7 _, ?_⟩
  obtain ⟨-, -, -, -, -, -, -, -, -, -, -, -, -, -, e0, e1⟩ := idx_facts (pointOf (i 0))
  rw [s3_mem_blk]
  intro a
  match a with
  | ⟨0, _⟩ =>
    show win2_7.index (pointOf (i 0)) (0 : Fin 2) * 1000 ≤ (i 0).val
      ∧ (i 0).val < win2_7.index (pointOf (i 0)) (0 : Fin 2) * 1000 + 1000
    rw [e0]; show (i 0).val / 1000 * 1000 ≤ (i 0).val ∧ (i 0).val < (i 0).val / 1000 * 1000 + 1000; omega
  | ⟨1, _⟩ =>
    show win2_7.index (pointOf (i 0)) (1 : Fin 2) * 128 ≤ (i 1).val
      ∧ (i 1).val < win2_7.index (pointOf (i 0)) (1 : Fin 2) * 128 + 128
    rw [e1]; omega

theorem final_l1 (c : Dev nD) :
    (dat2 (F := Ideal) V c).arrAt 6 cfg2.N
      = g2l (V c main_v21_0) (V c main_v21_2) (V c main_v2) (V c main_v21_1) (V c main_v17) (V c main_v6) :=
  (dat2 (F := Ideal) V c).arrAt_eq_of_cover 6
    (g2l (V c main_v21_0) (V c main_v21_2) (V c main_v2) (V c main_v21_1) (V c main_v17) (V c main_v6))
    (fun t _ => l1_flushed V c t) l1_cover

theorem final_s3 (c : Dev nD) :
    (dat2 (F := Ideal) V c).arrAt 7 cfg2.N
      = g2s (V c main_v21_0) (V c main_v21_2) (V c main_v2) (V c main_v21_1) (V c main_v17) :=
  (dat2 (F := Ideal) V c).arrAt_eq_of_cover 7
    (g2s (V c main_v21_0) (V c main_v21_2) (V c main_v2) (V c main_v21_1) (V c main_v17))
    (fun t _ => s3_flushed V c t) s3_cover

end Cert.KernelIdeal.Region2

end
-- ==== Proof.Region3.lean ====
/-
  The fourth launch: s4 = σ(adj · s3 + b3) · W4, computed 1000 rows at a time.

  At grid point t the launch reads rows 1000 t … 1000 t + 999 of the adjacency matrix and the whole of the support
  matrix, the bias row and the weight; it leaves rows 1000 t … 1000 t + 999 of the result.  Row r of the result reads
  the adjacency matrix on row r only, so each block is the restriction of one function of the four arrays, and the ten
  blocks tile the 10000 rows.
-/
import proofs.«114499_g16518444220475_cont_week2b_302_24_alg».proof.Proof.Gen.KernelIdeal.Frame
import proofs.«114499_g16518444220475_cont_week2b_302_24_alg».proof.Proof.Spec
import Idealize.ShloMosaic.Lib.Pipeline.Value
import Idealize.ShloMosaic.Lib.ValueLayout

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.Gcn Cert.PlainDot

/-- Row r of the launch's result reads the adjacency matrix on row r only: a matrix whose row p is that row gives the
    same entries on its row p. -/
theorem g3_row {M M' K : Nat} (A : Mat M K) (S : Mat K 128) (B : Mat 1 128) (W : Mat 128 128)
    (A' : Mat M' K) (p : Fin M') (r : Fin M) (q : Fin 128) (hA : ∀ k : Fin K, A' (ix2 p k) = A (ix2 r k)) :
    mm (lay A' S B) W (ix2 p q) = g3 A S B W (ix2 r q) := by
  show (∑ k : Fin 128, Ideal.logistic ((∑ k' : Fin K, A' (ix2 p k') * S (ix2 k' k)) + B (ix2 (0 : Fin 1) k)) * W (ix2 k q))
    = ∑ k : Fin 128, Ideal.logistic ((∑ k' : Fin K, A (ix2 r k') * S (ix2 k' k)) + B (ix2 (0 : Fin 1) k)) * W (ix2 k q)
  simp only [hA]

-- the buffer contents when the launch is entered: any contents at all
variable (V : (c : Dev nD) → (b : Ref sig .tc) → Buf (Elt Ideal) ((c : Thread nD τ).loc b))

/-- The zero offsets of a whole-buffer access, as a function. -/
theorem hz : (![0, 0] : Fin 2 → Nat) = fun _ => 0 := funext fun a => by fin_cases a <;> rfl

/-- The fourth launch's payload: the layer σ(a·s + b) of the loaded blocks, times the loaded weight. -/
theorem pay_s4 (a : Vec Ideal S1000x10000 .bf16) (s : Vec Ideal S10000x128 .bf16) (b : Vec Ideal S1x128 .f32)
    (w : Vec Ideal S128x128 .bf16) :
    k3_pay1 (F := Ideal) a s b w = mm (lay a s b) w := by
  unfold k3_pay1
  simp only [shapeCast_self]
  rw [show dot_S1000x10000_S10000x128_S1000x128_1_0_0_1_n_n = DotDims.plain 1000 10000 128 from rfl,
    matmul_add_row_eq]
  funext j
  rw [truncf_apply, show dot_S1000x128_S128x128_S1000x128_1_0_0_1_n_n = DotDims.plain 1000 128 128 from rfl]
  exact matmul_zero_apply none _ _ j

/-- The block indices over the grid: at point t the adjacency window and the output window are at row block t,
    column block 0; the support, the bias row and the weight are at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The adjacency window's block at point t is rows 1000 t … 1000 t + 999 of the adjacency array. -/
theorem blk_adj (c : Dev nD) (t : Fin cfg3.N) (x : S1000x10000.Idx) (k : S10000x10000.Idx)
    (hk0 : (k 0).val = t.val * 1000 + (x 0).val) (hk1 : (k 1).val = (x 1).val) :
    (iblk3 V c 0 t : Vec Ideal S1000x10000 .bf16) x = (V c main_v21_0 : S10000x10000.Idx → EReal) k := by
  obtain ⟨e0, e1, -⟩ := idx_facts t
  unfold iblk3
  rw [View.read_apply]
  show V c main_v21_0 _ = V c main_v21_0 _
  congr 1
  funext a
  apply Fin.ext
  match a with
  | ⟨0, _⟩ => show win3_0.index t (0 : Fin 2) * 1000 + 1 * (x 0).val = (k 0).val; rw [e0, hk0]; omega
  | ⟨1, _⟩ => show win3_0.index t (1 : Fin 2) * 10000 + 1 * (x 1).val = (k 1).val; rw [e1, hk1]; omega

/-- The support window's block is the whole support array at every point. -/
theorem blk_s3 (c : Dev nD) (t : Fin cfg3.N) :
    (iblk3 V c 1 t : Vec Ideal S10000x128 .bf16) = (V c main_v22_1 : S10000x128.Idx → EReal) := by
  obtain ⟨-, -, e0, e1, -⟩ := idx_facts t
  funext x
  unfold iblk3
  rw [View.read_apply]
  show V c main_v22_1 _ = V c main_v22_1 _
  congr 1
  funext a
  apply Fin.ext
  match a with
  | ⟨0, _⟩ => show win3_1.index t (0 : Fin 2) * 10000 + 1 * (x 0).val = (x 0).val; rw [e0]; omega
  | ⟨1, _⟩ => show win3_1.index t (1 : Fin 2) * 128 + 1 * (x 1).val = (x 1).val; rw [e1]; omega

/-- The bias window's block is the whole bias row at every point. -/
theorem blk_b3 (c : Dev nD) (t : Fin cfg3.N) :
    (iblk3 V c 2 t : Vec Ideal S1x128 .f32) = (V c main_v4 : S1x128.Idx → EReal) := by
  obtain ⟨-, -, -, -, e0, e1, -⟩ := idx_facts t
  funext x
  unfold iblk3
  rw [View.read_apply]
  show V c main_v4 _ = V c main_v4 _
  congr 1
  funext a
  apply Fin.ext
  match a with
  | ⟨0, _⟩ => show win3_2.index t (0 : Fin 2) * 1 + 1 * (x 0).val = (x 0).val; rw [e0]; omega
  | ⟨1, _⟩ => show win3_2.index t (1 : Fin 2) * 128 + 1 * (x 1).val = (x 1).val; rw [e1]; omega

/-- The weight window's block is the whole weight at every point. -/
theorem blk_w4 (c : Dev nD) (t : Fin cfg3.N) :
    (iblk3 V c 3 t : Vec Ideal S128x128 .bf16) = (V c main_v19 : S128x128.Idx → EReal) := by
  obtain ⟨-, -, -, -, -, -, e0, e1, -⟩ := idx_facts t
  funext x
  unfold iblk3
  rw [View.read_apply]
  show V c main_v19 _ = V c main_v19 _
  congr 1
  funext a
  apply Fin.ext
  match a with
  | ⟨0, _⟩ => show win3_3.index t (0 : Fin 2) * 128 + 1 * (x 0).val = (x 0).val; rw [e0]; omega
  | ⟨1, _⟩ => show win3_3.index t (1 : Fin 2) * 128 + 1 * (x 1).val = (x 1).val; rw [e1]; omega

/-- What point t writes back is block t of the launch's result, as a function of the arrays the launch finds. -/
theorem flushed_s4 (c : Dev nD) (t : Fin cfg3.N) :
    (dat3 (F := Ideal) V c).flushed 4 t = ((cfg3.win 4).blk t).view.read (Elt Ideal)
      (g3 (V c main_v21_0) (V c main_v22_1) (V c main_v4) (V c main_v19)) := by
  show (cfg3.win 4).cut (grid3.coords t) ((dat3 V c).after 4 t) = _
  rw [after3_4]
  unfold out3_4
  rw [View.canon_unit_zero hz]
  simp only [View.ld_unit_zero (S := S1000x10000) hz, View.ld_unit_zero (S := S10000x128) hz,
    View.ld_unit_zero (S := S1x128) hz, View.ld_unit_zero (S := S128x128) hz]
  rw [pay_s4, blk_s3, blk_b3, blk_w4]
  funext j
  obtain ⟨p, q, rfl⟩ : ∃ (p : Fin 1000) (q : Fin 128), j = ix2 p q := ⟨j 0, j 1, eq_ix2 j⟩
  obtain ⟨-, -, -, -, -, -, -, -, e0, e1⟩ := idx_facts t
  have hN : cfg3.N = 10 := N_3
  have hr : t.val * 1000 + p.val < 10000 := by have := t.isLt; omega
  have hemb : ((cfg3.win 4).blk t).view.emb (ix2 p q)
      = (ix2 (⟨t.val * 1000 + p.val, hr⟩ : Fin 10000) q : S10000x128.Idx) := by
    funext a
    apply Fin.ext
    match a with
    | ⟨0, _⟩ => show win3_4.index t (0 : Fin 2) * 1000 + 1 * p.val = t.val * 1000 + p.val; rw [e0]; omega
    | ⟨1, _⟩ => show win3_4.index t (1 : Fin 2) * 128 + 1 * q.val = q.val; rw [e1]; omega
  show mm (lay (iblk3 V c 0 t) (V c main_v22_1) (V c main_v4)) (V c main_v19) (ix2 p q)
    = g3 (V c main_v21_0) (V c main_v22_1) (V c main_v4) (V c main_v19) (((cfg3.win 4).blk t).view.emb (ix2 p q))
  rw [hemb]
  exact g3_row _ _ _ _ _ p ⟨_, hr⟩ q (fun k => blk_adj V c t (ix2 p k) (ix2 ⟨_, hr⟩ k) rfl rfl)

/-- An index of the output array is in point t's block iff each coordinate is in the block's range on its axis. -/
theorem mem_blk_s4 (t : Fin cfg3.N) (i : S10000x128.Idx) :
    i ∈ ((cfg3.win 4).blk t).view.set ↔ ∀ a : Fin 2, win3_4.index t a * S1000x128.size a ≤ (i a).val
      ∧ (i a).val < win3_4.index t a * S1000x128.size a + S1000x128.size a := by
  show i ∈ ((View.whole main_v23).slice (win3_4.rect t)).set ↔ _
  rw [View.set_slice_whole, Rect.mem_set_unit]
  exact Iff.rfl

/-- Every index of the output array is in the block of the point its row divided by 1000 names. -/
theorem cover_s4 (i : S10000x128.Idx) :
    ∃ t : Fin cfg3.N, (cfg3.win 4).flush t = true ∧ i ∈ ((cfg3.win 4).blk t).view.set := by
  have hi0 : (i 0).val < 10000 := (i 0).isLt
  have hi1 : (i 1).val < 128 := (i 1).isLt
  have hN : cfg3.N = 10 := N_3
  have ht : (i 0).val / 1000 < cfg3.N := by omega
  refine ⟨⟨(i 0).val / 1000, ht⟩, flush3_4 _, ?_⟩
  rw [mem_blk_s4]
  obtain ⟨-, -, -, -, -, -, -, -, e0, e1⟩ := idx_facts ⟨(i 0).val / 1000, ht⟩
  intro a
  match a with
  | ⟨0, _⟩ =>
    show win3_4.index ⟨(i 0).val / 1000, ht⟩ (0 : Fin 2) * 1000 ≤ (i 0).val
      ∧ (i 0).val < win3_4.index ⟨(i 0).val / 1000, ht⟩ (0 : Fin 2) * 1000 + 1000
    rw [e0]
    show (i 0).val / 1000 * 1000 ≤ (i 0).val ∧ (i 0).val < (i 0).val / 1000 * 1000 + 1000
    omega
  | ⟨1, _⟩ =>
    show win3_4.index ⟨(i 0).val / 1000, ht⟩ (1 : Fin 2) * 128 ≤ (i 1).val
      ∧ (i 1).val < win3_4.index ⟨(i 0).val / 1000, ht⟩ (1 : Fin 2) * 128 + 128
    rw [e1]
    omega

theorem final_s4 (c : Dev nD) :
    (dat3 (F := Ideal) V c).arrAt 4 cfg3.N = g3 (V c main_v21_0) (V c main_v22_1) (V c main_v4) (V c main_v19) :=
  (dat3 V c).arrAt_eq_of_cover 4 (g3 (V c main_v21_0) (V c main_v22_1) (V c main_v4) (V c main_v19))
    (fun t _ => flushed_s4 V c t) cover_s4

end Cert.KernelIdeal.Region3

end
-- ==== Proof.Region4.lean ====
/-
  The fifth launch: out = σ(x11 + σ(adj · s4 + b4) ∘ l1), computed 1000 rows at a time.

  At grid point t the launch reads rows 1000 t … 1000 t + 999 of the adjacency matrix, of x11 and of l1, and the whole of
  the support matrix and the bias row; it leaves rows 1000 t … 1000 t + 999 of the result.  Entry (r, q) of the result
  reads the adjacency matrix on row r only and x11, l1 at (r, q) only, so each block is the restriction of one function
  of the five arrays, and the ten blocks tile the 10000 rows.
-/
import proofs.«114499_g16518444220475_cont_week2b_302_24_alg».proof.Proof.Gen.KernelIdeal.Frame
import proofs.«114499_g16518444220475_cont_week2b_302_24_alg».proof.Proof.Spec
import Idealize.ShloMosaic.Lib.Pipeline.Value
import Idealize.ShloMosaic.Lib.ValueLayout

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen Cert.Gcn Cert.PlainDot

/-- Entry (r, q) of the launch's result reads the adjacency matrix on row r only, and x11 and l1 at (r, q) only:
    arrays that agree with them there give the same entry. -/
theorem g4_row {M M' K : Nat} (A : Mat M K) (S : Mat K 128) (B : Mat 1 128) (X L : Mat M 128)
    (A' : Mat M' K) (X' L' : Mat M' 128) (p : Fin M') (r : Fin M) (q : Fin 128)
    (hA : ∀ k : Fin K, A' (ix2 p k) = A (ix2 r k)) (hX : X' (ix2 p q) = X (ix2 r q)) (hL : L' (ix2 p q) = L (ix2 r q)) :
    g4 A' S B X' L' (ix2 p q) = g4 A S B X L (ix2 r q) := by
  show Ideal.logistic (X' (ix2 p q)
      + Ideal.logistic ((∑ k' : Fin K, A' (ix2 p k') * S (ix2 k' q)) + B (ix2 (0 : Fin 1) q)) * L' (ix2 p q))
    = Ideal.logistic (X (ix2 r q)
      + Ideal.logistic ((∑ k' : Fin K, A (ix2 r k') * S (ix2 k' q)) + B (ix2 (0 : Fin 1) q)) * L (ix2 r q))
  rw [hX, hL]
  simp only [hA]

-- the buffer contents when the launch is entered: any contents at all
variable (V : (c : Dev nD) → (b : Ref sig .tc) → Buf (Elt Ideal) ((c : Thread nD τ).loc b))

/-- The zero offsets of a whole-buffer access, as a function. -/
theorem hz : (![0, 0] : Fin 2 → Nat) = fun _ => 0 := funext fun a => by fin_cases a <;> rfl

/-- The fifth launch's payload: σ(x + σ(a·s + b) ∘ l) of the loaded blocks, entry by entry. -/
theorem pay_out (a : Vec Ideal S1000x10000 .bf16) (s : Vec Ideal S10000x128 .bf16) (b : Vec Ideal S1x128 .f32)
    (x : Vec Ideal S1000x128 .f32) (l : Vec Ideal S1000x128 .f32) :
    k4_pay1 (F := Ideal) a s b x l = g4 a s b x l := by
  unfold k4_pay1
  simp only [shapeCast_self]
  rw [show dot_S1000x10000_S10000x128_S1000x128_1_0_0_1_n_n = DotDims.plain 1000 10000 128 from rfl,
    matmul_add_row_eq]
  rfl

/-- The block indices over the grid: at point t the adjacency, x11, l1 and output windows are at row block t, column
    block 0; the support and the bias row are at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The adjacency window's block at point t is rows 1000 t … 1000 t + 999 of the adjacency array. -/
theorem blk_adj (c : Dev nD) (t : Fin cfg4.N) (x : S1000x10000.Idx) (k : S10000x10000.Idx)
    (hk0 : (k 0).val = t.val * 1000 + (x 0).val) (hk1 : (k 1).val = (x 1).val) :
    (iblk4 V c 0 t : Vec Ideal S1000x10000 .bf16) x = (V c main_v21_0 : S10000x10000.Idx → EReal) k := by
  obtain ⟨e0, e1, -⟩ := idx_facts t
  unfold iblk4
  rw [View.read_apply]
  show V c main_v21_0 _ = V c main_v21_0 _
  congr 1
  funext a
  apply Fin.ext
  match a with
  | ⟨0, _⟩ => show win4_0.index t (0 : Fin 2) * 1000 + 1 * (x 0).val = (k 0).val; rw [e0, hk0]; omega
  | ⟨1, _⟩ => show win4_0.index t (1 : Fin 2) * 10000 + 1 * (x 1).val = (k 1).val; rw [e1, hk1]; omega

/-- The support window's block is the whole support array at every point. -/
theorem blk_s4 (c : Dev nD) (t : Fin cfg4.N) :
    (iblk4 V c 1 t : Vec Ideal S10000x128 .bf16) = (V c main_v23 : S10000x128.Idx → EReal) := by
  obtain ⟨-, -, e0, e1, -⟩ := idx_facts t
  funext x
  unfold iblk4
  rw [View.read_apply]
  show V c main_v23 _ = V c main_v23 _
  congr 1
  funext a
  apply Fin.ext
  match a with
  | ⟨0, _⟩ => show win4_1.index t (0 : Fin 2) * 10000 + 1 * (x 0).val = (x 0).val; rw [e0]; omega
  | ⟨1, _⟩ => show win4_1.index t (1 : Fin 2) * 128 + 1 * (x 1).val = (x 1).val; rw [e1]; omega

/-- The bias window's block is the whole bias row at every point. -/
theorem blk_b4 (c : Dev nD) (t : Fin cfg4.N) :
    (iblk4 V c 2 t : Vec Ideal S1x128 .f32) = (V c main_v5 : S1x128.Idx → EReal) := by
  obtain ⟨-, -, -, -, e0, e1, -⟩ := idx_facts t
  funext x
  unfold iblk4
  rw [View.read_apply]
  show V c main_v5 _ = V c main_v5 _
  congr 1
  funext a
  apply Fin.ext
  match a with
  | ⟨0, _⟩ => show win4_2.index t (0 : Fin 2) * 1 + 1 * (x 0).val = (x 0).val; rw [e0]; omega
  | ⟨1, _⟩ => show win4_2.index t (1 : Fin 2) * 128 + 1 * (x 1).val = (x 1).val; rw [e1]; omega

/-- The x11 window's block at point t is rows 1000 t … 1000 t + 999 of the x11 array. -/
theorem blk_x11 (c : Dev nD) (t : Fin cfg4.N) (x : S1000x128.Idx) (k : S10000x128.Idx)
    (hk0 : (k 0).val = t.val * 1000 + (x 0).val) (hk1 : (k 1).val = (x 1).val) :
    (iblk4 V c 3 t : Vec Ideal S1000x128 .f32) x = (V c main_v21_1 : S10000x128.Idx → EReal) k := by
  obtain ⟨-, -, -, -, -, -, e0, e1, -⟩ := idx_facts t
  unfold iblk4
  rw [View.read_apply]
  show V c main_v21_1 _ = V c main_v21_1 _
  congr 1
  funext a
  apply Fin.ext
  match a with
  | ⟨0, _⟩ => show win4_3.index t (0 : Fin 2) * 1000 + 1 * (x 0).val = (k 0).val; rw [e0, hk0]; omega
  | ⟨1, _⟩ => show win4_3.index t (1 : Fin 2) * 128 + 1 * (x 1).val = (k 1).val; rw [e1, hk1]; omega

/-- The l1 window's block at point t is rows 1000 t … 1000 t + 999 of the l1 array. -/
theorem blk_l1 (c : Dev nD) (t : Fin cfg4.N) (x : S1000x128.Idx) (k : S10000x128.Idx)
    (hk0 : (k 0).val = t.val * 1000 + (x 0).val) (hk1 : (k 1).val = (x 1).val) :
    (iblk4 V c 4 t : Vec Ideal S1000x128 .f32) x = (V c main_v22_0 : S10000x128.Idx → EReal) k := by
  obtain ⟨-, -, -, -, -, -, -, -, e0, e1, -⟩ := idx_facts t
  unfold iblk4
  rw [View.read_apply]
  show V c main_v22_0 _ = V c main_v22_0 _
  congr 1
  funext a
  apply Fin.ext
  match a with
  | ⟨0, _⟩ => show win4_4.index t (0 : Fin 2) * 1000 + 1 * (x 0).val = (k 0).val; rw [e0, hk0]; omega
  | ⟨1, _⟩ => show win4_4.index t (1 : Fin 2) * 128 + 1 * (x 1).val = (k 1).val; rw [e1, hk1]; omega

/-- What point t writes back is block t of the launch's result, as a function of the arrays the launch finds. -/
theorem flushed_out (c : Dev nD) (t : Fin cfg4.N) :
    (dat4 (F := Ideal) V c).flushed 5 t = ((cfg4.win 5).blk t).view.read (Elt Ideal)
      (g4 (V c main_v21_0) (V c main_v23) (V c main_v5) (V c main_v21_1) (V c main_v22_0)) := by
  show (cfg4.win 5).cut (grid4.coords t) ((dat4 V c).after 5 t) = _
  rw [after4_5]
  unfold out4_5
  rw [View.canon_unit_zero hz]
  simp only [View.ld_unit_zero (S := S1000x10000) hz, View.ld_unit_zero (S := S10000x128) hz,
    View.ld_unit_zero (S := S1x128) hz, View.ld_unit_zero (S := S1000x128) hz]
  rw [pay_out, blk_s4, blk_b4]
  funext j
  obtain ⟨p, q, rfl⟩ : ∃ (p : Fin 1000) (q : Fin 128), j = ix2 p q := ⟨j 0, j 1, eq_ix2 j⟩
  obtain ⟨-, -, -, -, -, -, -, -, -, -, e0, e1⟩ := idx_facts t
  have hN : cfg4.N = 10 := N_4
  have hr : t.val * 1000 + p.val < 10000 := by have := t.isLt; omega
  have hemb : ((cfg4.win 5).blk t).view.emb (ix2 p q)
      = (ix2 (⟨t.val * 1000 + p.val, hr⟩ : Fin 10000) q : S10000x128.Idx) := by
    funext a
    apply Fin.ext
    match a with
    | ⟨0, _⟩ => show win4_5.index t (0 : Fin 2) * 1000 + 1 * p.val = t.val * 1000 + p.val; rw [e0]; omega
    | ⟨1, _⟩ => show win4_5.index t (1 : Fin 2) * 128 + 1 * q.val = q.val; rw [e1]; omega
  show g4 (iblk4 V c 0 t) (V c main_v23) (V c main_v5) (iblk4 V c 3 t) (iblk4 V c 4 t) (ix2 p q)
    = g4 (V c main_v21_0) (V c main_v23) (V c main_v5) (V c main_v21_1) (V c main_v22_0)
        (((cfg4.win 5).blk t).view.emb (ix2 p q))
  rw [hemb]
  exact g4_row _ _ _ _ _ _ _ _ p ⟨_, hr⟩ q (fun k => blk_adj V c t (ix2 p k) (ix2 ⟨_, hr⟩ k) rfl rfl)
    (blk_x11 V c t (ix2 p q) (ix2 ⟨_, hr⟩ q) rfl rfl) (blk_l1 V c t (ix2 p q) (ix2 ⟨_, hr⟩ q) rfl rfl)

/-- An index of the output array is in point t's block iff each coordinate is in the block's range on its axis. -/
theorem mem_blk_out (t : Fin cfg4.N) (i : S10000x128.Idx) :
    i ∈ ((cfg4.win 5).blk t).view.set ↔ ∀ a : Fin 2, win4_5.index t a * S1000x128.size a ≤ (i a).val
      ∧ (i a).val < win4_5.index t a * S1000x128.size a + S1000x128.size a := by
  show i ∈ ((View.whole main_v24).slice (win4_5.rect t)).set ↔ _
  rw [View.set_slice_whole, Rect.mem_set_unit]
  exact Iff.rfl

/-- Every index of the output array is in the block of the point its row divided by 1000 names. -/
theorem cover_out (i : S10000x128.Idx) :
    ∃ t : Fin cfg4.N, (cfg4.win 5).flush t = true ∧ i ∈ ((cfg4.win 5).blk t).view.set := by
  have hi0 : (i 0).val < 10000 := (i 0).isLt
  have hi1 : (i 1).val < 128 := (i 1).isLt
  have hN : cfg4.N = 10 := N_4
  have ht : (i 0).val / 1000 < cfg4.N := by omega
  refine ⟨⟨(i 0).val / 1000, ht⟩, flush4_5 _, ?_⟩
  rw [mem_blk_out]
  obtain ⟨-, -, -, -, -, -, -, -, -, -, e0, e1⟩ := idx_facts ⟨(i 0).val / 1000, ht⟩
  intro a
  match a with
  | ⟨0, _⟩ =>
    show win4_5.index ⟨(i 0).val / 1000, ht⟩ (0 : Fin 2) * 1000 ≤ (i 0).val
      ∧ (i 0).val < win4_5.index ⟨(i 0).val / 1000, ht⟩ (0 : Fin 2) * 1000 + 1000
    rw [e0]
    show (i 0).val / 1000 * 1000 ≤ (i 0).val ∧ (i 0).val < (i 0).val / 1000 * 1000 + 1000
    omega
  | ⟨1, _⟩ =>
    show win4_5.index ⟨(i 0).val / 1000, ht⟩ (1 : Fin 2) * 128 ≤ (i 1).val
      ∧ (i 1).val < win4_5.index ⟨(i 0).val / 1000, ht⟩ (1 : Fin 2) * 128 + 128
    rw [e1]
    omega

theorem final_out (c : Dev nD) :
    (dat4 (F := Ideal) V c).arrAt 5 cfg4.N
      = g4 (V c main_v21_0) (V c main_v23) (V c main_v5) (V c main_v21_1) (V c main_v22_0) :=
  (dat4 V c).arrAt_eq_of_cover 5 (g4 (V c main_v21_0) (V c main_v23) (V c main_v5) (V c main_v21_1) (V c main_v22_0))
    (fun t _ => flushed_out V c t) cover_out

end Cert.KernelIdeal.Region4

end
-- ==== Proof.HostRows.lean ====
import proofs.«114499_g16518444220475_cont_week2b_302_24_alg».proof.Proof.Gen.KernelIdeal.Frame
import proofs.«114499_g16518444220475_cont_week2b_302_24_alg».proof.Proof.Spec
import Idealize.ShloMosaic.Lib.Pipeline.Value
import Idealize.ShloMosaic.Lib.ValueLayout
import Idealize.ShloMosaic.Lib.KernelVsHost
import Idealize.ShloMosaic.Lib.StableHlo.Run

set_option maxRecDepth 16384

noncomputable section

namespace Cert.KernelIdeal.HostRows

open Idealize.ShloMosaic Idealize.ShloMosaic.TcCoe Idealize.ShloMosaic.ValueIdx Idealize.SL.Sem
open Cert.KernelIdeal Cert.KernelIdeal.Gen Cert.Gcn

variable (m : (ℓ : Loc nD τ sig) → Buf (Elt Ideal) ℓ) (ρ : Dev nD → PrngReg)

/-- No operation of the stretch writes the buffer: each operation writes one buffer, another one. -/
macro "not_written" : tactic => `(tactic| (
  refine List.forall_iff_forall_mem.mp ?_
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15,
    List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- One stretch back: the buffer holds after the stretch what it held before it. -/
macro "peel" : tactic => `(tactic| refine (StableHlo.after_of_forall_not_mem _ _ (by not_written)).trans ?_)

/-- A vector cast to one row reads, at (p, q), the vector at q. -/
theorem reshape_row {N : Nat} (b : Row N) (h : (⟨1, ![N]⟩ : Shape).ShapeCasts ⟨2, ![1, N]⟩) :
    (fun i => shapeCast (⟨2, ![1, N]⟩ : Shape) b h i) = rowOf b := by
  funext j
  obtain ⟨p, q, rfl⟩ : ∃ (p : Fin 1) (q : Fin N), j = ix2 p q := ⟨j 0, j 1, eq_ix2 j⟩
  exact shapeCast_a_1a_apply b h p q

/-- A row of 64 entries widened on the right by 64 copies of the one entry of an array that holds zero is the
    row in the left half of a zero row. -/
theorem pad_row (x : Mat 1 64) {u : Shape} (v : u.Idx → EReal) (hv : ∀ i, v i = 0)
    (hp : (⟨2, ![1, 64]⟩ : Shape).Pads (![0, 0] : Fin 2 → Nat) ![0, 64] ![0, 0] ⟨2, ![1, 128]⟩) (hu : 0 < u.numel) :
    pad (⟨2, ![1, 128]⟩ : Shape) ![0, 0] ![0, 64] ![0, 0] x v hp hu = (padTo x : Mat 1 128) := by
  funext j
  obtain ⟨p, q, rfl⟩ : ∃ (p : Fin 1) (q : Fin 128), j = ix2 p q := ⟨j 0, j 1, eq_ix2 j⟩
  have hp0 : p.val < 1 := p.isLt
  by_cases h : q.val < 64
  · have hin : ((ix2 p q : (⟨2, ![1, 128]⟩ : Shape).Idx) 0).val < 1 ∧ ((ix2 p q : (⟨2, ![1, 128]⟩ : Shape).Idx) 1).val < 64 := ⟨hp0, h⟩
    unfold padTo
    rw [dif_pos hin]
    exact pad_apply_of_inside _ _ _ x v hp hu _ (ix2 (⟨p.val, hp0⟩ : Fin 1) (⟨q.val, h⟩ : Fin 64)) (by
      intro a
      match a with
      | ⟨0, _⟩ => show p.val = 0 + p.val * (0 + 1); omega
      | ⟨1, _⟩ => show q.val = 0 + q.val * (0 + 1); omega)
  · have hin : ¬(((ix2 p q : (⟨2, ![1, 128]⟩ : Shape).Idx) 0).val < 1 ∧ ((ix2 p q : (⟨2, ![1, 128]⟩ : Shape).Idx) 1).val < 64) := fun e => h e.2
    unfold padTo
    rw [dif_neg hin, ← hv (Shape.Idx.first hu)]
    exact pad_apply_of_not_inside _ _ _ x v hp hu _ (1 : Fin 2) (by
      intro e
      have e2 : (q.val - 0) / (0 + 1) < 64 := e.2.2
      omega)

/-- The integer constant zero converted to a float is zero at its one index. -/
theorem sitofp_zero (i : S_.Idx) : (sitofp (F := Ideal) FTy.f32 (constantI S_ 32 0#32)) i = (0 : EReal) := by
  show (((0#32 : BitVec 32).toInt : ℝ) : EReal) = 0
  rw [BitVec.toInt_zero, Int.cast_zero, EReal.coe_zero]

/-- The widening of a vector's row: the row built by the cast, then the zeros on its right. -/
theorem pad_reshape_row (b : Row 64) (h : (⟨1, ![64]⟩ : Shape).ShapeCasts ⟨2, ![1, 64]⟩)
    (hp : (⟨2, ![1, 64]⟩ : Shape).Pads (![0, 0] : Fin 2 → Nat) ![0, 64] ![0, 0] ⟨2, ![1, 128]⟩) (hu : 0 < S_.numel) :
    pad (⟨2, ![1, 128]⟩ : Shape) ![0, 0] ![0, 64] ![0, 0] (fun i => shapeCast (⟨2, ![1, 64]⟩ : Shape) b h i)
      (sitofp (F := Ideal) FTy.f32 (constantI S_ 32 0#32)) hp hu = (padTo (rowOf b) : Mat 1 128) := by
  rw [reshape_row b h]
  exact pad_row (rowOf b) _ sitofp_zero hp hu

theorem v_arg0 (c : Dev nD) : V16 m ρ c main_arg0 = m ((c : Thread nD τ).loc main_arg0) := by
  show W16 m ρ c (Proc.devRef .tc main_arg0) = _
  iterate 16 peel
  rfl
theorem v_arg1 (c : Dev nD) : V16 m ρ c main_arg1 = m ((c : Thread nD τ).loc main_arg1) := by
  show W16 m ρ c (Proc.devRef .tc main_arg1) = _
  iterate 16 peel
  rfl
theorem v_arg2 (c : Dev nD) : V16 m ρ c main_arg2 = m ((c : Thread nD τ).loc main_arg2) := by
  show W16 m ρ c (Proc.devRef .tc main_arg2) = _
  iterate 16 peel
  rfl
/-- b1 as a row. -/
theorem v_b1r (c : Dev nD) : V16 m ρ c main_v0 = rowOf (m ((c : Thread nD τ).loc main_arg3)) := by
  show W16 m ρ c (Proc.devRef .tc main_v0) = _
  iterate 15 peel
  show StableHlo.after hostOps0 (W0 m ρ c) (Proc.devRef .tc main_v0) = _
  after_results_simp
  exact reshape_row (m ((c : Thread nD τ).loc main_arg3)) shapeCasts_S128_S1x128
/-- b2 as a row, widened by zeros. -/
theorem v_b2r (c : Dev nD) : V16 m ρ c main_v2 = (padTo (rowOf (m ((c : Thread nD τ).loc main_arg5))) : Mat 1 128) := by
  show W16 m ρ c (Proc.devRef .tc main_v2) = _
  iterate 14 peel
  show StableHlo.after hostOps0_1 (W1 m ρ c) (Proc.devRef .tc main_v2) = _
  after_results_simp
  exact pad_reshape_row (m ((c : Thread nD τ).loc main_arg5)) shapeCasts_S64_S1x64 pads_S1x64_S1x128_000_0640 h_S_
/-- b3 as a row, widened by zeros. -/
theorem v_b3r (c : Dev nD) : V16 m ρ c main_v4 = (padTo (rowOf (m ((c : Thread nD τ).loc main_arg7))) : Mat 1 128) := by
  show W16 m ρ c (Proc.devRef .tc main_v4) = _
  iterate 12 peel
  show StableHlo.after hostOps0_3 (W3 m ρ c) (Proc.devRef .tc main_v4) = _
  after_results_simp
  exact pad_reshape_row (m ((c : Thread nD τ).loc main_arg7)) shapeCasts_S64_S1x64 pads_S1x64_S1x128_000_0640 h_S_
/-- b4 as a row. -/
theorem v_b4r (c : Dev nD) : V16 m ρ c main_v5 = rowOf (m ((c : Thread nD τ).loc main_arg9)) := by
  show W16 m ρ c (Proc.devRef .tc main_v5) = _
  iterate 11 peel
  show StableHlo.after hostOps0_4 (W4 m ρ c) (Proc.devRef .tc main_v5) = _
  after_results_simp
  exact reshape_row (m ((c : Thread nD τ).loc main_arg9)) shapeCasts_S128_S1x128
/-- bl as a row. -/
theorem v_blr (c : Dev nD) : V16 m ρ c main_v6 = rowOf (m ((c : Thread nD τ).loc main_arg11)) := by
  show W16 m ρ c (Proc.devRef .tc main_v6) = _
  iterate 11 peel
  show StableHlo.after hostOps0_4 (W4 m ρ c) (Proc.devRef .tc main_v6) = _
  after_results_simp
  exact reshape_row (m ((c : Thread nD τ).loc main_arg11)) shapeCasts_S128_S1x128

end Cert.KernelIdeal.HostRows

end
-- ==== Proof.HostWeights.lean ====
import proofs.«114499_g16518444220475_cont_week2b_302_24_alg».proof.Proof.Gen.KernelIdeal.Frame
import proofs.«114499_g16518444220475_cont_week2b_302_24_alg».proof.Proof.Spec
import Idealize.ShloMosaic.Lib.Pipeline.Value
import Idealize.ShloMosaic.Lib.ValueLayout
import Idealize.ShloMosaic.Lib.KernelVsHost
import Idealize.ShloMosaic.Lib.StableHlo.Run

set_option maxRecDepth 16384

noncomputable section

namespace Cert.KernelIdeal.HostWeights

open Idealize.ShloMosaic Idealize.ShloMosaic.TcCoe Idealize.ShloMosaic.ValueIdx Idealize.SL.Sem
open Cert.KernelIdeal Cert.KernelIdeal.Gen Cert.Gcn

variable (m : (ℓ : Loc nD τ sig) → Buf (Elt Ideal) ℓ) (ρ : Dev nD → PrngReg)

/-!
  What the host operations before the first launch leave in the three widened weight arrays.

  Each array is a composition of row slices, pads by zeros at the high end, joins along rows or columns, and a
  final conversion that is the identity on extended reals.  The contents of a buffer after the operations is the
  composition of the operations that wrote it, applied to the launch contents of the arguments; each operation,
  read at an index, is the matching matrix operation of the specification.
-/

/-! ## The layout operations as the matrices of the specification -/

section Generic

variable {M N M' N' : Nat}

/-- A pad at the high end of both axes, no interior padding, with padding value zero, is the matrix in the top
    left corner of the larger one. -/
theorem pad_eq_padTo (hi : Fin 2 → Nat) (x : Mat M N) {u : Shape} (v : u.Idx → EReal)
    (h : Shape.Pads (s := ⟨2, ![M, N]⟩) ![0, 0] hi ![0, 0] ⟨2, ![M', N']⟩) (hu : 0 < u.numel)
    (hv : v (Shape.Idx.first hu) = 0) :
    pad (⟨2, ![M', N']⟩ : Shape) ![0, 0] hi ![0, 0] x v h hu = (padTo x : Mat M' N') := by
  funext j
  obtain ⟨p, q, rfl⟩ : ∃ (p : Fin M') (q : Fin N'), j = ix2 p q := ⟨j 0, j 1, eq_ix2 j⟩
  unfold padTo
  split
  · rename_i hh
    refine pad_apply_of_inside _ _ _ x v h hu _ _ ?_
    intro a
    match a with
    | ⟨0, _⟩ => show p.val = 0 + p.val * (0 + 1); omega
    | ⟨1, _⟩ => show q.val = 0 + q.val * (0 + 1); omega
  · rename_i hh
    have hh' : ¬ (p.val < M ∧ q.val < N) := hh
    rw [← hv]
    by_cases h0 : p.val < M
    · refine pad_apply_of_not_inside _ _ _ x v h hu _ (⟨1, by decide⟩ : Fin 2) ?_
      intro hin
      have e : (q.val - 0) / (0 + 1) < N := hin.2.2
      exact hh' ⟨h0, by simpa using e⟩
    · refine pad_apply_of_not_inside _ _ _ x v h hu _ (⟨0, by decide⟩ : Fin 2) ?_
      intro hin
      have e : (p.val - 0) / (0 + 1) < M := hin.2.2
      exact h0 (by simpa using e)

/-- The integer constant zero converted to a float is the real zero. -/
theorem padval_zero {u : Shape} (hu : 0 < u.numel) :
    (sitofp (F := Ideal) .f32 (constantI u 32 0#32) : FVec Ideal u .f32) (Shape.Idx.first hu) = (0 : EReal) := by
  show (((0#32 : BitVec 32).toInt : ℝ) : EReal) = 0
  simp

end Generic

section Generic2

variable {M N M' N' P Q T : Nat}

/-- A unit-stride slice of rows from row `o` on, all columns kept, is `rowsFrom o`. -/
theorem slice_eq_rowsFrom (o : Nat) (x : Mat M N) (ho : o + M' ≤ M)
    (h : Shape.Slices (s := ⟨2, ![M, N]⟩) ![o, 0] ⟨2, ![M', N]⟩) :
    extractStridedSlice (⟨2, ![M', N]⟩ : Shape) ![o, 0] x h = (rowsFrom o x : Mat M' N) := by
  funext j
  obtain ⟨p, q, rfl⟩ : ∃ (p : Fin M') (q : Fin N), j = ix2 p q := ⟨j 0, j 1, eq_ix2 j⟩
  have hp : o + p.val < M := by have := p.isLt; omega
  unfold rowsFrom
  split
  · refine extractStridedSlice_apply _ x h _ _ ?_
    intro a
    match a with
    | ⟨0, _⟩ => rfl
    | ⟨1, _⟩ => show q.val = 0 + q.val; omega
  · rename_i hh
    exact absurd hp hh

/-- Two matrices joined along the columns, the pieces filling the result exactly, are `catCols`. -/
theorem concat_cols_eq_catCols (A : Mat M P) (B : Mat M Q) (hT : P + Q = T)
    (h : Shape.Concatenates [(⟨2, ![M, P]⟩ : Shape), ⟨2, ![M, Q]⟩] ⟨2, ![M, T]⟩ (1 : Fin 2)) :
    concatenate (⟨2, ![M, T]⟩ : Shape) (1 : Fin 2) [⟨⟨2, ![M, P]⟩, A⟩, ⟨⟨2, ![M, Q]⟩, B⟩] h = (catCols A B : Mat M T) := by
  funext j
  obtain ⟨p, q, rfl⟩ : ∃ (p : Fin M) (q : Fin T), j = ix2 p q := ⟨j 0, j 1, eq_ix2 j⟩
  unfold catCols
  split
  · rename_i hh
    refine concatenate_pair_apply_left _ A B h _ rfl _ ?_
    intro b
    match b with
    | ⟨0, _⟩ => rfl
    | ⟨1, _⟩ => rfl
  · rename_i hh
    have hh' : ¬ q.val < P := hh
    have hq : q.val - P < Q := by have := q.isLt; omega
    split
    · refine concatenate_pair_apply_right _ A B h _ rfl rfl _ ?_ ?_
      · intro b hb
        match b, hb with
        | ⟨0, _⟩, _ => rfl
        | ⟨1, _⟩, hb => exact absurd rfl hb
      · show (q.val - P) + P = q.val
        omega
    · rename_i h2
      exact absurd hq h2

/-- Two matrices joined along the rows, the pieces filling the result exactly, are `catRows`. -/
theorem concat_rows_eq_catRows (A : Mat P N) (B : Mat Q N) (hT : P + Q = T)
    (h : Shape.Concatenates [(⟨2, ![P, N]⟩ : Shape), ⟨2, ![Q, N]⟩] ⟨2, ![T, N]⟩ (0 : Fin 2)) :
    concatenate (⟨2, ![T, N]⟩ : Shape) (0 : Fin 2) [⟨⟨2, ![P, N]⟩, A⟩, ⟨⟨2, ![Q, N]⟩, B⟩] h = (catRows A B : Mat T N) := by
  funext j
  obtain ⟨p, q, rfl⟩ : ∃ (p : Fin T) (q : Fin N), j = ix2 p q := ⟨j 0, j 1, eq_ix2 j⟩
  unfold catRows
  split
  · rename_i hh
    refine concatenate_pair_apply_left _ A B h _ rfl _ ?_
    intro b
    match b with
    | ⟨0, _⟩ => rfl
    | ⟨1, _⟩ => rfl
  · rename_i hh
    have hh' : ¬ p.val < P := hh
    have hq : p.val - P < Q := by have := p.isLt; omega
    split
    · refine concatenate_pair_apply_right _ A B h _ rfl rfl _ ?_ ?_
      · intro b hb
        match b, hb with
        | ⟨0, _⟩, hb => exact absurd rfl hb
        | ⟨1, _⟩, _ => rfl
      · show (p.val - P) + P = p.val
        omega
    · rename_i h2
      exact absurd hq h2

end Generic2

/-! ## The two padded weights -/

/-- W2 widened by zero columns. -/
theorem v_w2c (c : Dev nD) : V16 m ρ c main_v8 = (padTo (m ((c : Thread nD τ).loc main_arg4)) : Mat 128 128) := by
  have e : V16 m ρ c main_v8
      = pad S128x128 ![0, 0] ![0, 64] ![0, 0] (m ((c : Thread nD τ).loc main_arg4) : Mat 128 64)
          (sitofp (F := Ideal) .f32 (constantI S_ 32 0#32) : FVec Ideal S_ .f32) pads_S128x64_S128x128_000_0640 h_S_ := by
    show StableHlo.after hostOps0_15 (W15 m ρ c) (Proc.devRef .tc main_v8) = _
    after_results
    rfl
  rw [e]
  exact pad_eq_padTo _ _ _ _ _ (padval_zero _)

/-- W4 lengthened by zero rows. -/
theorem v_w4c (c : Dev nD) : V16 m ρ c main_v19 = (padTo (m ((c : Thread nD τ).loc main_arg8)) : Mat 128 128) := by
  have e : V16 m ρ c main_v19
      = pad S128x128 ![0, 0] ![64, 0] ![0, 0] (m ((c : Thread nD τ).loc main_arg8) : Mat 64 128)
          (sitofp (F := Ideal) .f32 (constantI S_ 32 0#32) : FVec Ideal S_ .f32) pads_S64x128_S128x128_0640_000 h_S_ := by
    show StableHlo.after hostOps0_15 (W15 m ρ c) (Proc.devRef .tc main_v19) = _
    after_results
    rfl
  rw [e]
  exact pad_eq_padTo _ _ _ _ _ (padval_zero _)

/-! ## The combined weight: its four quarters before the concatenations, then the whole -/

/-- The upper left quarter: rows 0..127 of Wl. -/
theorem b9 (c : Dev nD) : W12 m ρ c (Proc.devRef .tc main_v9) = (extractStridedSlice S128x128 ![0, 0] (m ((c : Thread nD τ).loc main_arg10) : Mat 192 128) slices_S192x128_S128x128_0_0 : Mat 128 128) := by
  show StableHlo.after hostOps0_11 (W11 m ρ c) (Proc.devRef .tc main_v9) = _
  after_results

/-- The lower left quarter: rows 128..191 of Wl over 64 zero rows. -/
theorem b11 (c : Dev nD) : W12 m ρ c (Proc.devRef .tc main_v11) = (pad S128x128 ![0, 0] ![64, 0] ![0, 0]
          (extractStridedSlice S64x128 ![128, 0] (m ((c : Thread nD τ).loc main_arg10) : Mat 192 128) slices_S192x128_S64x128_128_0 : Mat 64 128)
          (sitofp (F := Ideal) .f32 (constantI S_ 32 0#32) : FVec Ideal S_ .f32) pads_S64x128_S128x128_0640_000 h_S_ : Mat 128 128) := by
  show StableHlo.after hostOps0_11 (W11 m ρ c) (Proc.devRef .tc main_v11) = _
  after_results
  rfl

/-- The upper right quarter: rows 0..127 of W3 beside 64 zero columns. -/
theorem b13 (c : Dev nD) : W12 m ρ c (Proc.devRef .tc main_v13) = (pad S128x128 ![0, 0] ![0, 64] ![0, 0]
          (extractStridedSlice S128x64 ![0, 0] (m ((c : Thread nD τ).loc main_arg6) : Mat 192 64) slices_S192x64_S128x64_0_0 : Mat 128 64)
          (sitofp (F := Ideal) .f32 (constantI S_ 32 0#32) : FVec Ideal S_ .f32) pads_S128x64_S128x128_000_0640 h_S_ : Mat 128 128) := by
  show StableHlo.after hostOps0_11 (W11 m ρ c) (Proc.devRef .tc main_v13) = _
  after_results
  rfl

/-- The lower right quarter: rows 128..191 of W3, zero rows below and zero columns beside. -/
theorem b15 (c : Dev nD) : W12 m ρ c (Proc.devRef .tc main_v15) = (pad S128x128 ![0, 0] ![64, 64] ![0, 0]
          (extractStridedSlice S64x64 ![128, 0] (m ((c : Thread nD τ).loc main_arg6) : Mat 192 64) slices_S192x64_S64x64_128_0 : Mat 64 64)
          (sitofp (F := Ideal) .f32 (constantI S_ 32 0#32) : FVec Ideal S_ .f32) pads_S64x64_S128x128_0640_0640 h_S_ : Mat 128 128) := by
  show StableHlo.after hostOps0_11 (W11 m ρ c) (Proc.devRef .tc main_v15) = _
  after_results
  rfl

/-- The whole from the four quarters: two joins along the columns, one along the rows. -/
theorem b17 (c : Dev nD) : V16 m ρ c main_v17
    = (concatenate S256x256 0
        [⟨S128x256, concatenate S128x256 1
            [⟨S128x128, (W12 m ρ c (Proc.devRef .tc main_v9) : Mat 128 128)⟩,
             ⟨S128x128, (W12 m ρ c (Proc.devRef .tc main_v13) : Mat 128 128)⟩]
            concatenates_S128x128_S128x128_S128x256_d1⟩,
         ⟨S128x256, concatenate S128x256 1
            [⟨S128x128, (W12 m ρ c (Proc.devRef .tc main_v11) : Mat 128 128)⟩,
             ⟨S128x128, (W12 m ρ c (Proc.devRef .tc main_v15) : Mat 128 128)⟩]
            concatenates_S128x128_S128x128_S128x256_d1⟩]
        concatenates_S128x256_S128x256_S256x256_d0 : Mat 256 256) := by
  show StableHlo.after hostOps0_15 (StableHlo.after hostOps0_14 (StableHlo.after hostOps0_13
    (StableHlo.after hostOps0_12 (W12 m ρ c)))) (Proc.devRef .tc main_v17) = _
  generalize W12 m ρ c = V
  after_results
  rfl

/-- The combined 256 x 256 weight. -/
theorem v_wcomb (c : Dev nD) : V16 m ρ c main_v17 = wcomb (m ((c : Thread nD τ).loc main_arg10)) (m ((c : Thread nD τ).loc main_arg6)) := by
  rw [b17, b9, b11, b13, b15]
  rw [slice_eq_rowsFrom 0 _ (by decide) slices_S192x128_S128x128_0_0,
    slice_eq_rowsFrom 128 _ (by decide) slices_S192x128_S64x128_128_0,
    slice_eq_rowsFrom 0 _ (by decide) slices_S192x64_S128x64_0_0,
    slice_eq_rowsFrom 128 _ (by decide) slices_S192x64_S64x64_128_0]
  rw [pad_eq_padTo _ _ _ pads_S64x128_S128x128_0640_000 h_S_ (padval_zero _),
    pad_eq_padTo _ _ _ pads_S128x64_S128x128_000_0640 h_S_ (padval_zero _),
    pad_eq_padTo _ _ _ pads_S64x64_S128x128_0640_0640 h_S_ (padval_zero _)]
  rw [concat_cols_eq_catCols _ _ (by decide) concatenates_S128x128_S128x128_S128x256_d1,
    concat_cols_eq_catCols _ _ (by decide) concatenates_S128x128_S128x128_S128x256_d1,
    concat_rows_eq_catRows _ _ (by decide) concatenates_S128x256_S128x256_S256x256_d0]
  rfl

end Cert.KernelIdeal.HostWeights

end
-- ==== Proof.Chain.lean ====
/-
  The result array after the five launches, read back to the launch memory.

  Between launches every array is either one a launch has just written, which holds that launch's function of the
  arrays it read, or one it did not write, which holds what it held before.  Walking from the launch memory
  forward: the host leaves the bias rows and the widened weights; the first launch leaves s1 = x · W1; the second the
  adjacency matrix again, x11 and s2; the third l1 and s3; the fourth s4; the fifth the result.
-/
import proofs.«114499_g16518444220475_cont_week2b_302_24_alg».proof.Proof.Gen.KernelIdeal.Frame
import proofs.«114499_g16518444220475_cont_week2b_302_24_alg».proof.Proof.Spec
import proofs.«114499_g16518444220475_cont_week2b_302_24_alg».proof.Proof.Region0
import proofs.«114499_g16518444220475_cont_week2b_302_24_alg».proof.Proof.Region1
import proofs.«114499_g16518444220475_cont_week2b_302_24_alg».proof.Proof.Region2
import proofs.«114499_g16518444220475_cont_week2b_302_24_alg».proof.Proof.Region3
import proofs.«114499_g16518444220475_cont_week2b_302_24_alg».proof.Proof.Region4
import proofs.«114499_g16518444220475_cont_week2b_302_24_alg».proof.Proof.HostRows
import proofs.«114499_g16518444220475_cont_week2b_302_24_alg».proof.Proof.HostWeights

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen Cert.Gcn

variable (m : (ℓ : Loc nD τ sig) → Buf (Elt Ideal) ℓ) (ρ : Dev nD → PrngReg) (c : Dev nD)

/-! ## The arrays in terms of the launch memory -/

abbrev aX : Mat 10000 128 := m ((c : Thread nD τ).loc main_arg0)
abbrev aA : Mat 10000 10000 := m ((c : Thread nD τ).loc main_arg1)
abbrev aW1 : Mat 128 128 := m ((c : Thread nD τ).loc main_arg2)
abbrev aB1 : Mat 1 128 := rowOf (m ((c : Thread nD τ).loc main_arg3))
abbrev aW2 : Mat 128 128 := padTo (m ((c : Thread nD τ).loc main_arg4))
abbrev aB2 : Mat 1 128 := padTo (rowOf (m ((c : Thread nD τ).loc main_arg5)))
abbrev aWc : Mat 256 256 := wcomb (m ((c : Thread nD τ).loc main_arg10)) (m ((c : Thread nD τ).loc main_arg6))
abbrev aBl : Mat 1 128 := rowOf (m ((c : Thread nD τ).loc main_arg11))
abbrev aB3 : Mat 1 128 := padTo (rowOf (m ((c : Thread nD τ).loc main_arg7)))
abbrev aW4 : Mat 128 128 := padTo (m ((c : Thread nD τ).loc main_arg8))
abbrev aB4 : Mat 1 128 := rowOf (m ((c : Thread nD τ).loc main_arg9))
abbrev aS1 : Mat 10000 128 := mm (aX m c) (aW1 m c)
abbrev aX11 : Mat 10000 128 := lay (aA m c) (aS1 m c) (aB1 m c)
abbrev aS2 : Mat 10000 128 := mm (aX11 m c) (aW2 m c)
abbrev aL1 : Mat 10000 128 := g2l (aA m c) (aS2 m c) (aB2 m c) (aX11 m c) (aWc m c) (aBl m c)
abbrev aS3 : Mat 10000 128 := g2s (aA m c) (aS2 m c) (aB2 m c) (aX11 m c) (aWc m c)
abbrev aS4 : Mat 10000 128 := g3 (aA m c) (aS3 m c) (aB3 m c) (aW4 m c)

/-! ## Entering the first launch: what the host operations leave -/

theorem e16_x : V16 m ρ c main_arg0 = aX m c := HostRows.v_arg0 m ρ c
theorem e16_a : V16 m ρ c main_arg1 = aA m c := HostRows.v_arg1 m ρ c
theorem e16_w1 : V16 m ρ c main_arg2 = aW1 m c := HostRows.v_arg2 m ρ c
theorem e16_b1 : V16 m ρ c main_v0 = aB1 m c := HostRows.v_b1r m ρ c
theorem e16_b2 : V16 m ρ c main_v2 = aB2 m c := HostRows.v_b2r m ρ c
theorem e16_b3 : V16 m ρ c main_v4 = aB3 m c := HostRows.v_b3r m ρ c
theorem e16_b4 : V16 m ρ c main_v5 = aB4 m c := HostRows.v_b4r m ρ c
theorem e16_bl : V16 m ρ c main_v6 = aBl m c := HostRows.v_blr m ρ c
theorem e16_w2 : V16 m ρ c main_v8 = aW2 m c := HostWeights.v_w2c m ρ c
theorem e16_wc : V16 m ρ c main_v17 = aWc m c := HostWeights.v_wcomb m ρ c
theorem e16_w4 : V16 m ρ c main_v19 = aW4 m c := HostWeights.v_w4c m ρ c

/-! ## After the first launch -/

theorem e17_s1 : V17 m ρ c main_v20 = aS1 m c :=
  (W17_arr m ρ c 2).trans ((Region0.final_s1 (V16 m ρ) c).trans (by rw [e16_x, e16_w1]))
theorem e17_a : V17 m ρ c main_arg1 = aA m c := (W17_of_ne m ρ c main_arg1 (by decide)).trans (e16_a m ρ c)
theorem e17_b1 : V17 m ρ c main_v0 = aB1 m c := (W17_of_ne m ρ c main_v0 (by decide)).trans (e16_b1 m ρ c)
theorem e17_b2 : V17 m ρ c main_v2 = aB2 m c := (W17_of_ne m ρ c main_v2 (by decide)).trans (e16_b2 m ρ c)
theorem e17_b3 : V17 m ρ c main_v4 = aB3 m c := (W17_of_ne m ρ c main_v4 (by decide)).trans (e16_b3 m ρ c)
theorem e17_b4 : V17 m ρ c main_v5 = aB4 m c := (W17_of_ne m ρ c main_v5 (by decide)).trans (e16_b4 m ρ c)
theorem e17_bl : V17 m ρ c main_v6 = aBl m c := (W17_of_ne m ρ c main_v6 (by decide)).trans (e16_bl m ρ c)
theorem e17_w2 : V17 m ρ c main_v8 = aW2 m c := (W17_of_ne m ρ c main_v8 (by decide)).trans (e16_w2 m ρ c)
theorem e17_wc : V17 m ρ c main_v17 = aWc m c := (W17_of_ne m ρ c main_v17 (by decide)).trans (e16_wc m ρ c)
theorem e17_w4 : V17 m ρ c main_v19 = aW4 m c := (W17_of_ne m ρ c main_v19 (by decide)).trans (e16_w4 m ρ c)

/-! ## After the second launch -/

theorem e18_a : V18 m ρ c main_v21_0 = aA m c :=
  (W18_arr m ρ c 4).trans ((Region1.final_adj16 (V17 m ρ) c).trans (e17_a m ρ c))
theorem e18_x11 : V18 m ρ c main_v21_1 = aX11 m c :=
  (W18_arr m ρ c 5).trans ((Region1.final_x11 (V17 m ρ) c).trans (by rw [e17_a, e17_s1, e17_b1]))
theorem e18_s2 : V18 m ρ c main_v21_2 = aS2 m c :=
  (W18_arr m ρ c 6).trans ((Region1.final_s2 (V17 m ρ) c).trans (by rw [e17_a, e17_s1, e17_b1, e17_w2]))
theorem e18_b2 : V18 m ρ c main_v2 = aB2 m c := (W18_of_ne m ρ c main_v2 (by decide)).trans (e17_b2 m ρ c)
theorem e18_b3 : V18 m ρ c main_v4 = aB3 m c := (W18_of_ne m ρ c main_v4 (by decide)).trans (e17_b3 m ρ c)
theorem e18_b4 : V18 m ρ c main_v5 = aB4 m c := (W18_of_ne m ρ c main_v5 (by decide)).trans (e17_b4 m ρ c)
theorem e18_bl : V18 m ρ c main_v6 = aBl m c := (W18_of_ne m ρ c main_v6 (by decide)).trans (e17_bl m ρ c)
theorem e18_wc : V18 m ρ c main_v17 = aWc m c := (W18_of_ne m ρ c main_v17 (by decide)).trans (e17_wc m ρ c)
theorem e18_w4 : V18 m ρ c main_v19 = aW4 m c := (W18_of_ne m ρ c main_v19 (by decide)).trans (e17_w4 m ρ c)

/-! ## After the third launch -/

theorem e19_l1 : V19 m ρ c main_v22_0 = aL1 m c :=
  (W19_arr m ρ c 6).trans ((Region2.final_l1 (V18 m ρ) c).trans (by rw [e18_a, e18_s2, e18_b2, e18_x11, e18_wc, e18_bl]))
theorem e19_s3 : V19 m ρ c main_v22_1 = aS3 m c :=
  (W19_arr m ρ c 7).trans ((Region2.final_s3 (V18 m ρ) c).trans (by rw [e18_a, e18_s2, e18_b2, e18_x11, e18_wc]))
theorem e19_a : V19 m ρ c main_v21_0 = aA m c :=
  ((W19_arr m ρ c 0).trans (((dat2 (V18 m ρ) c).arrAt_in 0 rfl _).trans (A_eq2 (V18 m ρ) c 0))).trans (e18_a m ρ c)
theorem e19_x11 : V19 m ρ c main_v21_1 = aX11 m c :=
  ((W19_arr m ρ c 3).trans (((dat2 (V18 m ρ) c).arrAt_in 3 rfl _).trans (A_eq2 (V18 m ρ) c 3))).trans (e18_x11 m ρ c)
theorem e19_b3 : V19 m ρ c main_v4 = aB3 m c := (W19_of_ne m ρ c main_v4 (by decide)).trans (e18_b3 m ρ c)
theorem e19_b4 : V19 m ρ c main_v5 = aB4 m c := (W19_of_ne m ρ c main_v5 (by decide)).trans (e18_b4 m ρ c)
theorem e19_w4 : V19 m ρ c main_v19 = aW4 m c := (W19_of_ne m ρ c main_v19 (by decide)).trans (e18_w4 m ρ c)

/-! ## After the fourth launch -/

theorem e20_s4 : V20 m ρ c main_v23 = aS4 m c :=
  (W20_arr m ρ c 4).trans ((Region3.final_s4 (V19 m ρ) c).trans (by rw [e19_a, e19_s3, e19_b3, e19_w4]))
theorem e20_a : V20 m ρ c main_v21_0 = aA m c :=
  ((W20_arr m ρ c 0).trans (((dat3 (V19 m ρ) c).arrAt_in 0 rfl _).trans (A_eq3 (V19 m ρ) c 0))).trans (e19_a m ρ c)
theorem e20_x11 : V20 m ρ c main_v21_1 = aX11 m c := (W20_of_ne m ρ c main_v21_1 (by decide)).trans (e19_x11 m ρ c)
theorem e20_l1 : V20 m ρ c main_v22_0 = aL1 m c := (W20_of_ne m ρ c main_v22_0 (by decide)).trans (e19_l1 m ρ c)
theorem e20_b4 : V20 m ρ c main_v5 = aB4 m c := (W20_of_ne m ρ c main_v5 (by decide)).trans (e19_b4 m ρ c)

/-! ## After the fifth launch: the result -/

/-- The result array at the last boundary is the kernel's function of the launch memory's arrays. -/
theorem result_eq : W21 m ρ c (Proc.devRef .tc main_v24)
    = kernelOut (aX m c) (aA m c) (aW1 m c) (aB1 m c) (aW2 m c) (aB2 m c) (aWc m c) (aBl m c) (aB3 m c) (aW4 m c) (aB4 m c) :=
  (W21_arr m ρ c 5).trans ((Region4.final_out (V20 m ρ) c).trans (by rw [e20_a, e20_s4, e20_b4, e20_x11, e20_l1]; rfl))

end Cert.KernelIdeal.Chain

end
-- ==== Proof.Bridge.lean ====
import proofs.«114499_g16518444220475_cont_week2b_302_24_alg».proof.Proof.Spec

noncomputable section

namespace Cert.Gcn

open Idealize.ShloMosaic Idealize.ShloMosaic.ValueIdx Cert.PlainDot

variable {M K N P Q T M' N' Q' T' R : Nat}

namespace Bridge

/-! ## Sums whose tail vanishes

On the extended reals x * 0 = 0 for every x, the infinite ones included, and addition is a commutative monoid,
so a sum of products whose right factors vanish from some index on is the sum over the indices before it. -/

/-- A sum over n' indices whose terms vanish from index n on is the sum of its first n terms. -/
theorem sum_castLE {n n' : Nat} (h : n ≤ n') (f : Fin n' → EReal) (hz : ∀ k : Fin n', n ≤ k.val → f k = 0) :
    ∑ k : Fin n', f k = ∑ k : Fin n, f (Fin.castLE h k) := by
  have e : ∑ k : Fin n, f (Fin.castLE h k) = ∑ k ∈ Finset.univ.map (Fin.castLEEmb h), f k :=
    (Finset.sum_map Finset.univ (Fin.castLEEmb h) f).symm
  rw [e]
  symm
  refine Finset.sum_subset (Finset.subset_univ _) fun k _ hk => hz k ?_
  by_contra hlt
  exact hk (Finset.mem_map.2 ⟨⟨k.val, Nat.lt_of_not_le hlt⟩, Finset.mem_univ _, Fin.ext rfl⟩)

/-- A sum of products over n' inner indices whose right factors vanish from index n on, against the sum over
    the first n indices of factors that agree there. -/
theorem sum_mul_trunc {n n' : Nat} (h : n ≤ n') (u v : Fin n' → EReal) (u₀ v₀ : Fin n → EReal)
    (hu : ∀ k : Fin n, u (Fin.castLE h k) = u₀ k) (hv : ∀ k : Fin n, v (Fin.castLE h k) = v₀ k)
    (hz : ∀ k : Fin n', n ≤ k.val → v k = 0) :
    ∑ k : Fin n', u k * v k = ∑ k : Fin n, u₀ k * v₀ k := by
  rw [sum_castLE h (fun k => u k * v k) (fun k hk => by show u k * v k = 0; rw [hz k hk, mul_zero])]
  refine Finset.sum_congr rfl fun k _ => ?_
  show u (Fin.castLE h k) * v (Fin.castLE h k) = u₀ k * v₀ k
  rw [hu k, hv k]

/-! ## The arrays read at an index -/

theorem ix2_congr {a b : Nat} {p p' : Fin a} {q q' : Fin b} (hp : p.val = p'.val) (hq : q.val = q'.val) :
    ix2 p q = ix2 p' q' := by
  rw [Fin.ext hp, Fin.ext hq]

theorem mm_apply (A : Mat M K) (B : Mat K N) (p : Fin M) (q : Fin N) :
    mm A B (ix2 p q) = ∑ k : Fin K, A (ix2 p k) * B (ix2 k q) := rfl

theorem affine_apply (A : Mat M K) (B : Mat K N) (b : Mat 1 N) (p : Fin M) (q : Fin N) :
    affine A B b (ix2 p q) = (∑ k : Fin K, A (ix2 p k) * B (ix2 k q)) + b (ix2 (0 : Fin 1) q) := rfl

theorem catCols_apply (A : Mat M P) (B : Mat M Q) (p : Fin M) (q : Fin T) :
    (catCols A B : Mat M T) (ix2 p q) =
      if h : q.val < P then A (ix2 p ⟨q.val, h⟩)
      else if h' : q.val - P < Q then B (ix2 p ⟨q.val - P, h'⟩) else 0 := rfl

theorem catRows_apply (A : Mat P N) (B : Mat Q N) (p : Fin T) (q : Fin N) :
    (catRows A B : Mat T N) (ix2 p q) =
      if h : p.val < P then A (ix2 ⟨p.val, h⟩ q)
      else if h' : p.val - P < Q then B (ix2 ⟨p.val - P, h'⟩ q) else 0 := rfl

theorem padTo_apply (A : Mat M N) (p : Fin M') (q : Fin N') :
    (padTo A : Mat M' N') (ix2 p q) =
      if h : p.val < M ∧ q.val < N then A (ix2 ⟨p.val, h.1⟩ ⟨q.val, h.2⟩) else 0 := rfl

theorem colsFrom_apply (o : Nat) (A : Mat M N) (p : Fin M) (q : Fin N') :
    (colsFrom o A : Mat M N') (ix2 p q) = if h : o + q.val < N then A (ix2 p ⟨o + q.val, h⟩) else 0 := rfl

theorem rowsFrom_apply (o : Nat) (A : Mat M N) (p : Fin M') (q : Fin N) :
    (rowsFrom o A : Mat M' N) (ix2 p q) = if h : o + p.val < M then A (ix2 ⟨o + p.val, h⟩ q) else 0 := rfl

/-! ## A wider array that carries a narrower one in its first columns -/

/-- Z' carries Z in its first columns: entries in the same row and with the same column number agree. -/
def ColsOf (Z' : Mat M N') (Z : Mat M N) : Prop :=
  ∀ (p : Fin M) (q : Fin N) (q' : Fin N'), q'.val = q.val → Z' (ix2 p q') = Z (ix2 p q)

/-- A matrix widened by zero columns carries it. -/
theorem colsOf_padTo (A : Mat M N) : ColsOf (padTo A : Mat M N') A := by
  intro p q q' hq
  rw [padTo_apply, dif_pos ⟨p.isLt, hq.trans_lt q.isLt⟩]
  exact congrArg A (ix2_congr rfl hq)

/-- Column c of a product only reads column c of the right factor. -/
theorem colsOf_mm (A : Mat M K) {B' : Mat K N'} {B : Mat K N} (h : ColsOf B' B) : ColsOf (mm A B') (mm A B) := by
  intro p q q' hq
  rw [mm_apply, mm_apply]
  exact Finset.sum_congr rfl fun k _ => by rw [h k q q' hq]

theorem colsOf_affine (a : Mat M K) {S' : Mat K N'} {S : Mat K N} {b' : Mat 1 N'} {b : Mat 1 N}
    (hS : ColsOf S' S) (hb : ColsOf b' b) : ColsOf (affine a S' b') (affine a S b) := by
  intro p q q' hq
  rw [affine_apply, affine_apply, hb 0 q q' hq]
  exact congrArg (· + b (ix2 (0 : Fin 1) q)) (Finset.sum_congr rfl fun k _ => by rw [hS k q q' hq])

/-- A layer over a widened support and a widened bias row carries the layer over the narrow ones. -/
theorem colsOf_lay (a : Mat M K) {S' : Mat K N'} {S : Mat K N} {b' : Mat 1 N'} {b : Mat 1 N}
    (hS : ColsOf S' S) (hb : ColsOf b' b) : ColsOf (lay a S' b') (lay a S b) := by
  intro p q q' hq
  show Ideal.logistic (affine a S' b' (ix2 p q')) = Ideal.logistic (affine a S b (ix2 p q))
  rw [colsOf_affine a hS hb p q q' hq]

/-- Side by side with the same left block, a wider right block carrying a narrower one: the concatenations agree
    on the columns the narrow one fills. -/
theorem colsOf_catCols (A : Mat M P) {B' : Mat M Q'} {B : Mat M Q} (h : ColsOf B' B) (hT : T ≤ P + Q) (hQ : Q ≤ Q') :
    ColsOf (catCols A B' : Mat M T') (catCols A B : Mat M T) := by
  intro p q q' hq
  have hq2 := q.isLt
  rw [catCols_apply, catCols_apply]
  by_cases h1 : q.val < P
  · rw [dif_pos (hq.trans_lt h1), dif_pos h1]
    exact congrArg A (ix2_congr rfl hq)
  · have h2 : q.val - P < Q := by omega
    have h1' : ¬ q'.val < P := by omega
    have h2' : q'.val - P < Q' := by omega
    rw [dif_neg h1', dif_pos h2', dif_neg h1, dif_pos h2]
    exact h p ⟨q.val - P, h2⟩ ⟨q'.val - P, h2'⟩ (by show q'.val - P = q.val - P; rw [hq])

/-! ## The combined 256 x 256 weight read at an index -/

/-- Rows 0..191, columns 0..127 of the combined weight are Wl. -/
theorem wcomb_left (Wl : Mat 192 128) (W3 : Mat 192 64) (k : Fin 192) (c : Fin 128) (k' c' : Fin 256)
    (hk : k'.val = k.val) (hc : c'.val = c.val) : wcomb Wl W3 (ix2 k' c') = Wl (ix2 k c) := by
  have hk2 := k.isLt
  have hc2 := c.isLt
  unfold wcomb
  rw [catRows_apply]
  by_cases h1 : k'.val < 128
  · rw [dif_pos h1, catCols_apply, dif_pos (show c'.val < 128 by omega), rowsFrom_apply,
      dif_pos (show 0 + k'.val < 192 by omega)]
    exact congrArg Wl (ix2_congr (by show 0 + k'.val = k.val; omega) hc)
  · rw [dif_neg h1, dif_pos (show k'.val - 128 < 128 by omega), catCols_apply, dif_pos (show c'.val < 128 by omega),
      padTo_apply, dif_pos ⟨show k'.val - 128 < 64 by omega, show c'.val < 128 by omega⟩, rowsFrom_apply,
      dif_pos (show 128 + (k'.val - 128) < 192 by omega)]
    exact congrArg Wl (ix2_congr (by show 128 + (k'.val - 128) = k.val; omega) hc)

/-- Rows 0..191, columns 128..191 of the combined weight are W3. -/
theorem wcomb_right (Wl : Mat 192 128) (W3 : Mat 192 64) (k : Fin 192) (c : Fin 64) (k' c' : Fin 256)
    (hk : k'.val = k.val) (hc : c'.val = 128 + c.val) : wcomb Wl W3 (ix2 k' c') = W3 (ix2 k c) := by
  have hk2 := k.isLt
  have hc2 := c.isLt
  unfold wcomb
  rw [catRows_apply]
  by_cases h1 : k'.val < 128
  · rw [dif_pos h1, catCols_apply, dif_neg (show ¬ c'.val < 128 by omega), dif_pos (show c'.val - 128 < 128 by omega),
      padTo_apply, dif_pos ⟨show k'.val < 128 by omega, show c'.val - 128 < 64 by omega⟩, rowsFrom_apply,
      dif_pos (show 0 + k'.val < 192 by omega)]
    exact congrArg W3 (ix2_congr (by show 0 + k'.val = k.val; omega) (by show c'.val - 128 = c.val; omega))
  · rw [dif_neg h1, dif_pos (show k'.val - 128 < 128 by omega), catCols_apply, dif_neg (show ¬ c'.val < 128 by omega),
      dif_pos (show c'.val - 128 < 128 by omega), padTo_apply,
      dif_pos ⟨show k'.val - 128 < 64 by omega, show c'.val - 128 < 64 by omega⟩, rowsFrom_apply,
      dif_pos (show 128 + (k'.val - 128) < 192 by omega)]
    exact congrArg W3 (ix2_congr (by show 128 + (k'.val - 128) = k.val; omega) (by show c'.val - 128 = c.val; omega))

/-- Rows 192..255 of the combined weight are zero. -/
theorem wcomb_zero (Wl : Mat 192 128) (W3 : Mat 192 64) (k' c' : Fin 256) (hk : 192 ≤ k'.val) :
    wcomb Wl W3 (ix2 k' c') = 0 := by
  have hk2 := k'.isLt
  have hc2 := c'.isLt
  unfold wcomb
  rw [catRows_apply, dif_neg (show ¬ k'.val < 128 by omega), dif_pos (show k'.val - 128 < 128 by omega), catCols_apply]
  by_cases h2 : c'.val < 128
  · rw [dif_pos h2, padTo_apply, dif_neg (show ¬ (k'.val - 128 < 64 ∧ c'.val < 128) by omega)]
  · rw [dif_neg h2, dif_pos (show c'.val - 128 < 128 by omega), padTo_apply,
      dif_neg (show ¬ (k'.val - 128 < 64 ∧ c'.val - 128 < 64) by omega)]

/-! ## The 256-wide concatenation against the combined weight -/

/-- Left half: the 192-wide concatenation against Wl. -/
theorem mm_wcomb_left {cat' : Mat R 256} {cat : Mat R 192} (hcat : ColsOf cat' cat) (Wl : Mat 192 128) (W3 : Mat 192 64)
    (p : Fin R) (c : Fin 128) (c' : Fin 256) (hc : c'.val = c.val) :
    mm cat' (wcomb Wl W3) (ix2 p c') = mm cat Wl (ix2 p c) := by
  rw [mm_apply, mm_apply]
  exact sum_mul_trunc (by omega : 192 ≤ 256) (fun k => cat' (ix2 p k)) (fun k => wcomb Wl W3 (ix2 k c'))
    (fun k => cat (ix2 p k)) (fun k => Wl (ix2 k c))
    (fun k => hcat p k (Fin.castLE (by omega) k) rfl)
    (fun k => wcomb_left Wl W3 k c (Fin.castLE (by omega) k) c' rfl hc)
    (fun k hk => wcomb_zero Wl W3 k c' hk)

/-- Right half: the 192-wide concatenation against W3. -/
theorem mm_wcomb_right {cat' : Mat R 256} {cat : Mat R 192} (hcat : ColsOf cat' cat) (Wl : Mat 192 128) (W3 : Mat 192 64)
    (p : Fin R) (c : Fin 64) (c' : Fin 256) (hc : c'.val = 128 + c.val) :
    mm cat' (wcomb Wl W3) (ix2 p c') = mm cat W3 (ix2 p c) := by
  rw [mm_apply, mm_apply]
  exact sum_mul_trunc (by omega : 192 ≤ 256) (fun k => cat' (ix2 p k)) (fun k => wcomb Wl W3 (ix2 k c'))
    (fun k => cat (ix2 p k)) (fun k => W3 (ix2 k c))
    (fun k => hcat p k (Fin.castLE (by omega) k) rfl)
    (fun k => wcomb_right Wl W3 k c (Fin.castLE (by omega) k) c' rfl hc)
    (fun k hk => wcomb_zero Wl W3 k c' hk)

/-! ## The stages, for any first-layer output x11 -/

theorem stages (adj : Mat R R) (x11 : Mat R 128) (W2 : Mat 128 64) (b2 : Row 64) (W3 : Mat 192 64) (b3 : Row 64)
    (W4 : Mat 64 128) (b4 : Row 128) (Wl : Mat 192 128) (bl : Row 128) :
    g4 adj (g3 adj (g2s adj (mm x11 (padTo W2 : Mat 128 128)) (padTo (rowOf b2) : Mat 1 128) x11 (wcomb Wl W3))
        (padTo (rowOf b3) : Mat 1 128) (padTo W4 : Mat 128 128)) (rowOf b4) x11
      (g2l adj (mm x11 (padTo W2 : Mat 128 128)) (padTo (rowOf b2) : Mat 1 128) x11 (wcomb Wl W3) (rowOf bl))
    = fun j => Ideal.logistic (x11 j +
        lay adj (mm (lay adj (mm (catCols x11 (lay adj (mm x11 W2) (rowOf b2)) : Mat R 192) W3) (rowOf b3)) W4) (rowOf b4) j
          * affine (catCols x11 (lay adj (mm x11 W2) (rowOf b2)) : Mat R 192) Wl (rowOf bl) j) := by
  -- the widened second layer carries the reference's
  have hx12 : ColsOf (lay adj (mm x11 (padTo W2 : Mat 128 128)) (padTo (rowOf b2) : Mat 1 128))
      (lay adj (mm x11 W2) (rowOf b2)) :=
    colsOf_lay adj (colsOf_mm x11 (colsOf_padTo W2)) (colsOf_padTo (rowOf b2))
  -- so the 256-wide concatenation carries the 192-wide one
  have hcat : ColsOf (g2cat adj (mm x11 (padTo W2 : Mat 128 128)) (padTo (rowOf b2) : Mat 1 128) x11)
      (catCols x11 (lay adj (mm x11 W2) (rowOf b2)) : Mat R 192) :=
    colsOf_catCols x11 hx12 (by omega) (by omega)
  -- the linear branch
  have hl1 : g2l adj (mm x11 (padTo W2 : Mat 128 128)) (padTo (rowOf b2) : Mat 1 128) x11 (wcomb Wl W3) (rowOf bl)
      = affine (catCols x11 (lay adj (mm x11 W2) (rowOf b2)) : Mat R 192) Wl (rowOf bl) := by
    funext j
    obtain ⟨p, q, rfl⟩ : ∃ (p : Fin R) (q : Fin 128), j = ix2 p q := ⟨j 0, j 1, eq_ix2 j⟩
    show (colsFrom 0 (mm (g2cat adj (mm x11 (padTo W2 : Mat 128 128)) (padTo (rowOf b2) : Mat 1 128) x11) (wcomb Wl W3)) : Mat R 128) (ix2 p q)
        + rowOf bl (ix2 (0 : Fin 1) q) = _
    have hq2 := q.isLt
    rw [colsFrom_apply, dif_pos (show 0 + q.val < 256 by omega),
      mm_wcomb_left hcat Wl W3 p q ⟨0 + q.val, by omega⟩ (by show 0 + q.val = q.val; omega)]
    rfl
  -- the third layer's support
  have hs3 : ColsOf (g2s adj (mm x11 (padTo W2 : Mat 128 128)) (padTo (rowOf b2) : Mat 1 128) x11 (wcomb Wl W3))
      (mm (catCols x11 (lay adj (mm x11 W2) (rowOf b2)) : Mat R 192) W3) := by
    intro p q q' hq
    have hq2 := q.isLt
    show (colsFrom 128 (mm (g2cat adj (mm x11 (padTo W2 : Mat 128 128)) (padTo (rowOf b2) : Mat 1 128) x11) (wcomb Wl W3)) : Mat R 128) (ix2 p q') = _
    rw [colsFrom_apply, dif_pos (show 128 + q'.val < 256 by omega)]
    exact mm_wcomb_right hcat Wl W3 p q ⟨128 + q'.val, by omega⟩ (by show 128 + q'.val = 128 + q.val; rw [hq])
  -- the widened third layer carries the reference's
  have hx21 := colsOf_lay adj hs3 (colsOf_padTo (N' := 128) (rowOf b3))
  -- the fourth layer's support: rows 64..127 of the lengthened W4 are zero
  have hs4 : g3 adj (g2s adj (mm x11 (padTo W2 : Mat 128 128)) (padTo (rowOf b2) : Mat 1 128) x11 (wcomb Wl W3))
        (padTo (rowOf b3) : Mat 1 128) (padTo W4 : Mat 128 128)
      = mm (lay adj (mm (catCols x11 (lay adj (mm x11 W2) (rowOf b2)) : Mat R 192) W3) (rowOf b3)) W4 := by
    funext j
    obtain ⟨p, q, rfl⟩ : ∃ (p : Fin R) (q : Fin 128), j = ix2 p q := ⟨j 0, j 1, eq_ix2 j⟩
    unfold g3
    rw [mm_apply, mm_apply]
    refine sum_mul_trunc (by omega : 64 ≤ 128) _ (fun k => (padTo W4 : Mat 128 128) (ix2 k q)) _ (fun k => W4 (ix2 k q))
      (fun k => hx21 p k (Fin.castLE (by omega) k) rfl) (fun k => ?_) (fun k hk => ?_)
    · show (padTo W4 : Mat 128 128) (ix2 (Fin.castLE _ k) q) = W4 (ix2 k q)
      rw [padTo_apply, dif_pos ⟨k.isLt, q.isLt⟩]
      exact congrArg W4 (ix2_congr rfl rfl)
    · show (padTo W4 : Mat 128 128) (ix2 k q) = 0
      rw [padTo_apply, dif_neg (show ¬ (k.val < 64 ∧ q.val < 128) by omega)]
  funext j
  show Ideal.logistic (x11 j + lay adj (g3 adj (g2s adj (mm x11 (padTo W2 : Mat 128 128)) (padTo (rowOf b2) : Mat 1 128) x11 (wcomb Wl W3))
        (padTo (rowOf b3) : Mat 1 128) (padTo W4 : Mat 128 128)) (rowOf b4) j
      * g2l adj (mm x11 (padTo W2 : Mat 128 128)) (padTo (rowOf b2) : Mat 1 128) x11 (wcomb Wl W3) (rowOf bl) j) = _
  rw [hs4, hl1]

end Bridge

/-- With the host's widened weights and bias rows the kernel's function is the reference's. -/
theorem kernelOut_eq_refOut (x : Mat 10000 128) (adj : Mat 10000 10000) (W1 : Mat 128 128) (b1 : Row 128) (W2 : Mat 128 64)
    (b2 : Row 64) (W3 : Mat 192 64) (b3 : Row 64) (W4 : Mat 64 128) (b4 : Row 128) (Wl : Mat 192 128) (bl : Row 128) :
    kernelOut x adj W1 (rowOf b1) (padTo W2) (padTo (rowOf b2)) (wcomb Wl W3) (rowOf bl) (padTo (rowOf b3)) (padTo W4) (rowOf b4)
      = refOut x adj W1 b1 W2 b2 W3 b3 W4 b4 Wl bl :=
  Bridge.stages adj (lay adj (mm x W1) (rowOf b1)) W2 b2 W3 b3 W4 b4 Wl bl

end Cert.Gcn

end
-- ==== Proof.RefValue.lean ====
/-
  The reference's result array, read as mathematics.

  The reference is a chain of host operations on whole arrays.  Each kind of operation is first identified, once and
  for all, with a definition of the specification: a plain dot product of two matrices is the matrix product; one
  divided by one plus the exponential of the negated array is the logistic function on every entry; a product plus a
  vector repeated down the rows is the product with a bias row; a concatenation along the columns is two matrices side
  by side.  Each identification is proved entry by entry.  The result term is then rewritten with them from the inside
  out, and what remains is the specification's own expression for the reference.
-/
import proofs.«114499_g16518444220475_cont_week2b_302_24_alg».proof.Proof.Gen.ReferenceIdeal.Run
import proofs.«114499_g16518444220475_cont_week2b_302_24_alg».proof.Proof.Spec
import Idealize.ShloMosaic.Lib.Pipeline.Value
import Idealize.ShloMosaic.Lib.ValueLayout
import Idealize.ShloMosaic.Lib.IdealHost

set_option maxRecDepth 16384

noncomputable section

namespace Cert.ReferenceIdeal.RefValue

open Idealize.ShloMosaic Idealize.ShloMosaic.TcCoe Idealize.ShloMosaic.ValueIdx Idealize.SL.Sem
open Cert.ReferenceIdeal Cert.Gcn Cert.PlainDot

section Arrays

variable {M K N P Q : Nat}

/-! ## The host's operations on whole arrays, as the mathematics of the specification -/

/-- The host's plain dot product of two matrices is the matrix product. -/
theorem dot_plain_eq (A : FVec Ideal (⟨2, ![M, K]⟩ : Shape) .f32) (B : FVec Ideal (⟨2, ![K, N]⟩ : Shape) .f32) :
    Host.dotGeneral (DotDims.plain M K N) none A B = mm A B := by
  funext j
  exact dotGeneral_apply none .single A B j

/-- The quotient of one by one plus the exponential of the negated array is the logistic function entrywise. -/
theorem logistic_expand (h : (⟨0, ![]⟩ : Shape).BroadcastsInDim (⟨2, ![M, N]⟩ : Shape) ![]) (z : Mat M N) :
    Host.divf (F := Ideal) (φ := .f32) (broadcastInDim (⟨2, ![M, N]⟩ : Shape) ![] h (constant (F := Ideal) (⟨0, ![]⟩ : Shape) .f32 0x3F800000#32))
        (addf (broadcastInDim (⟨2, ![M, N]⟩ : Shape) ![] h (constant (F := Ideal) (⟨0, ![]⟩ : Shape) .f32 0x3F800000#32)) (Host.exp (Host.negf z)))
      = lgs z := by
  funext j
  show Ideal.div (Ideal.ofBits .f32 0x3F800000#32) (Ideal.ofBits .f32 0x3F800000#32 + Ideal.exp (-(z j))) = Ideal.logistic (z j)
  rw [Ideal.ofBits_one_f32]
  rfl

/-- A vector made a one-row matrix and then repeated down the rows reads the vector at the column. -/
theorem bias_apply (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    (b : (⟨1, ![N]⟩ : Shape).Idx → EReal) (p : Fin M) (q : Fin N) :
    broadcastInDim (⟨2, ![M, N]⟩ : Shape) ![0, 1] h2 (broadcastInDim (⟨2, ![1, N]⟩ : Shape) ![1] h1 b) (ix2 p q) = b (ix1 q) := by
  rw [broadcastInDim_apply _ h2 _ (ix2 p q) (ix2 (0 : Fin 1) q) ?_, broadcastInDim_apply _ h1 _ (ix2 (0 : Fin 1) q) (ix1 q) ?_]
  · intro a
    match a with
    | ⟨0, _⟩ =>
      show q.val = if N = 1 then 0 else q.val
      split_ifs with hN
      · have := q.isLt; omega
      · rfl
  · intro a
    match a with
    | ⟨0, _⟩ => show (0 : Nat) = if (1 : Nat) = 1 then 0 else _; rw [if_pos rfl]
    | ⟨1, _⟩ =>
      show q.val = if N = 1 then 0 else q.val
      split_ifs with hN
      · have := q.isLt; omega
      · rfl

/-- A matrix product plus a vector repeated down the rows is the product with the bias row added. -/
theorem mm_add_bias (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    (A : Mat M K) (B : Mat K N) (b : Row N) :
    addf (F := Ideal) (φ := .f32) (mm A B) (broadcastInDim (⟨2, ![M, N]⟩ : Shape) ![0, 1] h2 (broadcastInDim (⟨2, ![1, N]⟩ : Shape) ![1] h1 b))
      = affine A B (rowOf b) := by
  funext j
  obtain ⟨p, q, rfl⟩ : ∃ (p : Fin M) (q : Fin N), j = ix2 p q := ⟨j 0, j 1, eq_ix2 j⟩
  show mm A B (ix2 p q) + broadcastInDim (⟨2, ![M, N]⟩ : Shape) ![0, 1] h2 (broadcastInDim (⟨2, ![1, N]⟩ : Shape) ![1] h1 b) (ix2 p q) = _
  rw [bias_apply]
  rfl

/-- The host's concatenation of two matrices along the columns is the two matrices side by side. -/
theorem concat_cols_eq {T : Nat}
    (h : Shape.Concatenates [(⟨2, ![M, P]⟩ : Shape), (⟨2, ![M, Q]⟩ : Shape)] (⟨2, ![M, T]⟩ : Shape) 1)
    (A : Mat M P) (B : Mat M Q) :
    concatenate (⟨2, ![M, T]⟩ : Shape) 1 [⟨(⟨2, ![M, P]⟩ : Shape), A⟩, ⟨(⟨2, ![M, Q]⟩ : Shape), B⟩] h = (catCols A B : Mat M T) := by
  have hT : P + Q = T := by
    have := h.2.2
    simpa using this
  funext j
  obtain ⟨p, q, rfl⟩ : ∃ (p : Fin M) (q : Fin T), j = ix2 p q := ⟨j 0, j 1, eq_ix2 j⟩
  unfold catCols
  by_cases hq : q.val < P
  · rw [dif_pos (show ((ix2 p q : (⟨2, ![M, T]⟩ : Shape).Idx) 1).val < P from hq)]
    refine concatenate_pair_apply_left (1 : Fin 2) A B h (ix2 p q) rfl (ix2 p ⟨q.val, hq⟩) ?_
    intro b
    match b with
    | ⟨0, _⟩ => rfl
    | ⟨1, _⟩ => rfl
  · have hq' : q.val - P < Q := by have := q.isLt; omega
    rw [dif_neg (show ¬ ((ix2 p q : (⟨2, ![M, T]⟩ : Shape).Idx) 1).val < P from hq),
      dif_pos (show ((ix2 p q : (⟨2, ![M, T]⟩ : Shape).Idx) 1).val - P < Q from hq')]
    refine concatenate_pair_apply_right (1 : Fin 2) A B h (ix2 p q) rfl rfl (ix2 p ⟨q.val - P, hq'⟩) ?_ ?_
    · intro b hb
      match b with
      | ⟨0, _⟩ => rfl
      | ⟨1, _⟩ => exact absurd rfl hb
    · show q.val - P + P = q.val
      omega

end Arrays

/-! ## The reference's result -/

/-- The reference run's result term is the reference's function of the twelve argument arrays. -/
theorem res_eq (m : (ℓ : Loc nD τ sig) → Buf (Elt Ideal) ℓ) (c : Dev nD) :
    Cert.ReferenceIdeal.Value.res_main_v56 (F := Ideal) m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  have d1 : ∀ (A : FVec Ideal S10000x128 .f32) (B : FVec Ideal S128x128 .f32), Host.dotGeneral (F := Ideal) dot_S10000x128_S128x128_S10000x128_1_0_0_1_n_n none A B = mm A B :=
    fun A B => dot_plain_eq A B
  have d2 : ∀ (A : FVec Ideal S10000x10000 .f32) (B : FVec Ideal S10000x128 .f32), Host.dotGeneral (F := Ideal) dot_S10000x10000_S10000x128_S10000x128_1_0_0_1_n_n none A B = mm A B :=
    fun A B => dot_plain_eq A B
  have d3 : ∀ (A : FVec Ideal S10000x128 .f32) (B : FVec Ideal S128x64 .f32), Host.dotGeneral (F := Ideal) dot_S10000x128_S128x64_S10000x64_1_0_0_1_n_n none A B = mm A B :=
    fun A B => dot_plain_eq A B
  have d4 : ∀ (A : FVec Ideal S10000x10000 .f32) (B : FVec Ideal S10000x64 .f32), Host.dotGeneral (F := Ideal) dot_S10000x10000_S10000x64_S10000x64_1_0_0_1_n_n none A B = mm A B :=
    fun A B => dot_plain_eq A B
  have d5 : ∀ (A : FVec Ideal S10000x192 .f32) (B : FVec Ideal S192x128 .f32), Host.dotGeneral (F := Ideal) dot_S10000x192_S192x128_S10000x128_1_0_0_1_n_n none A B = mm A B :=
    fun A B => dot_plain_eq A B
  have d6 : ∀ (A : FVec Ideal S10000x192 .f32) (B : FVec Ideal S192x64 .f32), Host.dotGeneral (F := Ideal) dot_S10000x192_S192x64_S10000x64_1_0_0_1_n_n none A B = mm A B :=
    fun A B => dot_plain_eq A B
  have d7 : ∀ (A : FVec Ideal S10000x64 .f32) (B : FVec Ideal S64x128 .f32), Host.dotGeneral (F := Ideal) dot_S10000x64_S64x128_S10000x128_1_0_0_1_n_n none A B = mm A B :=
    fun A B => dot_plain_eq A B
  have a128 : ∀ {K : Nat} (A : Mat 10000 K) (B : Mat K 128) (b : FVec Ideal S128 .f32),
      addf (F := Ideal) (mm A B) (broadcastInDim S10000x128 ![0, 1] Gen.bcast_S1x128_S10000x128_0_1
        (broadcastInDim S1x128 ![1] Gen.bcast_S128_S1x128_1 b)) = affine A B (rowOf b) :=
    fun A B b => mm_add_bias _ _ A B b
  have a64 : ∀ {K : Nat} (A : Mat 10000 K) (B : Mat K 64) (b : FVec Ideal S64 .f32),
      addf (F := Ideal) (mm A B) (broadcastInDim S10000x64 ![0, 1] Gen.bcast_S1x64_S10000x64_0_1
        (broadcastInDim S1x64 ![1] Gen.bcast_S64_S1x64_1 b)) = affine A B (rowOf b) :=
    fun A B b => mm_add_bias _ _ A B b
  have l128 : ∀ (z : FVec Ideal S10000x128 .f32),
      Host.divf (broadcastInDim S10000x128 ![] Gen.bcast_S_S10000x128 (constant (F := Ideal) S_ .f32 0x3F800000#32))
        (addf (broadcastInDim S10000x128 ![] Gen.bcast_S_S10000x128 (constant S_ .f32 0x3F800000#32)) (Host.exp (Host.negf z))) = lgs z :=
    fun z => logistic_expand _ z
  have l64 : ∀ (z : FVec Ideal S10000x64 .f32),
      Host.divf (broadcastInDim S10000x64 ![] Gen.bcast_S_S10000x64 (constant (F := Ideal) S_ .f32 0x3F800000#32))
        (addf (broadcastInDim S10000x64 ![] Gen.bcast_S_S10000x64 (constant S_ .f32 0x3F800000#32)) (Host.exp (Host.negf z))) = lgs z :=
    fun z => logistic_expand _ z
  unfold Cert.ReferenceIdeal.Value.res_main_v56
  simp only [d1, d2, d3, d4, d5, d6, d7, a128, a64, l128, l64, concat_cols_eq]
  clear d1 d2 d3 d4 d5 d6 d7 a128 a64 l128 l64
  rfl

end Cert.ReferenceIdeal.RefValue

end
-- ==== Proof.lean ====
/-
  The certificate of a four-layer graph convolution with a dense adjacency matrix: a kernel of five launches against
  its plain reference, equal over the extended reals.

  The kernel streams the adjacency matrix in row blocks, once per layer, and fuses into each pass the small
  per-row work of the next layer; its 64-column pieces are widened to 128 columns by zero columns and zero rows of
  the weights the host prepares.  Over the extended reals a product with zero is zero and a sum is unordered, so
  the widening changes nothing: every launch leaves a whole-array function of what it read, the five compose to
  one function of the twelve arguments, and with the host's widened weights that function is the reference's.

  The frames of the two kernel programs are the generated frame run; the reference's frame is its generated run
  with the result dropped; the idealized kernel is the kernel's own text read at the extended reals (no rewrite
  was applied, so there is nothing to preserve).
-/
import proofs.«114499_g16518444220475_cont_week2b_302_24_alg».proof.Defs
import proofs.«114499_g16518444220475_cont_week2b_302_24_alg».proof.Proof.Gen.Kernel
import proofs.«114499_g16518444220475_cont_week2b_302_24_alg».proof.Proof.Gen.Kernel.Skeleton
import proofs.«114499_g16518444220475_cont_week2b_302_24_alg».proof.Proof.Gen.Kernel.Launch
import proofs.«114499_g16518444220475_cont_week2b_302_24_alg».proof.Proof.Gen.Kernel.Points
import proofs.«114499_g16518444220475_cont_week2b_302_24_alg».proof.Proof.Gen.Kernel.Frame
import proofs.«114499_g16518444220475_cont_week2b_302_24_alg».proof.Proof.Gen.KernelIdeal
import proofs.«114499_g16518444220475_cont_week2b_302_24_alg».proof.Proof.Gen.KernelIdeal.Skeleton
import proofs.«114499_g16518444220475_cont_week2b_302_24_alg».proof.Proof.Gen.KernelIdeal.Launch
import proofs.«114499_g16518444220475_cont_week2b_302_24_alg».proof.Proof.Gen.KernelIdeal.Points
import proofs.«114499_g16518444220475_cont_week2b_302_24_alg».proof.Proof.Gen.KernelIdeal.Frame
import proofs.«114499_g16518444220475_cont_week2b_302_24_alg».proof.Proof.Gen.ReferenceIdeal
import proofs.«114499_g16518444220475_cont_week2b_302_24_alg».proof.Proof.Gen.ReferenceIdeal.Run
import proofs.«114499_g16518444220475_cont_week2b_302_24_alg».proof.Proof.Gen.Pre_finite_inputs
import proofs.«114499_g16518444220475_cont_week2b_302_24_alg».proof.Proof.KernelRun
import proofs.«114499_g16518444220475_cont_week2b_302_24_alg».proof.Proof.Chain
import proofs.«114499_g16518444220475_cont_week2b_302_24_alg».proof.Proof.Bridge
import proofs.«114499_g16518444220475_cont_week2b_302_24_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- Over the extended reals both programs end with the reference's function of the twelve arguments in their
    result arrays: the kernel's five launches compose to `kernelOut` of the arguments and the host's widened
    weights, which is `refOut`; the reference's run term is `refOut` of its own arguments, which agree. -/
theorem algebraic : Cert.algebraic_KernelIdeal_ReferenceIdeal := by
  intro m ρ m' ρ' _ hagree
  refine ⟨fun c => Cert.Gcn.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans ((Cert.KernelIdeal.Chain.result_eq m ρ c).trans (Cert.Gcn.kernelOut_eq_refOut _ _ _ _ _ _ _ _ _ _ _ _)), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.RefValue.res_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
